-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S6x2048 : Shape := ⟨2, ![6, 2048]⟩
abbrev S6 : Shape := ⟨1, ![6]⟩
abbrev S2048x6 : Shape := ⟨2, ![2048, 6]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S6x2048 : S_.BroadcastsInDim S6x2048 (![] : Fin 0 → Fin S6x2048.rank)
  reducesTo_S6x2048_S_d0_1 : S6x2048.ReducesTo [0, 1] S_
  bcast_S_S6 : S_.BroadcastsInDim S6 (![] : Fin 0 → Fin S6.rank)
  reducesTo_S6_S_d0 : S6.ReducesTo [0] S_
  bcast_S_S2048x6 : S_.BroadcastsInDim S2048x6 (![] : Fin 0 → Fin S2048x6.rank)
  reducesTo_S2048x6_S_d0_1 : S2048x6.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x6 1) : IVec S_ 1 :=
  let main_c_5 : IVec S_ 1 := constantI S_ 1 1#1
  let main_v17 : IVec S_ 1 := (fun x v => Host.reduce IntOp.andi x v reducesTo_S2048x6_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x4096x2048 .f32) (main_arg1 : FVec F S6x2048 .f32) (main_arg2 : FVec F S6 .f32) (main_arg3 : FVec F S2048x6 .f32) (main_arg4 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S6x2048 .f32 := Host.absf main_arg1
  let main_cst_0 : FVec F S_ .f32 := constant S_ .f32 0x7F800000#32
  let main_v5 : FVec F S6x2048 .f32 := broadcastInDim S6x2048 ![] bcast_S_S6x2048 main_cst_0
  let main_v6 : IVec S6x2048 1 := cmpf .olt main_v4 main_v5
  let main_c_1 : IVec S_ 1 := constantI S_ 1 1#1
  let main_v7 : IVec S_ 1 := (fun x v => Host.reduce IntOp.andi x v reducesTo_S6x2048_S_d0_1 h_S_) main_v6 main_c_1
  let main_v8 : IVec S_ 1 := andi main_v3 main_v7
  let main_v9 : FVec F S6 .f32 := Host.absf main_arg2
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S2048x6 .f32 := Host.absf main_arg3
  let main_cst_4 : FVec F S_ .f32 := constant S_ .f32 0x7F800000#32
  let main_v15 : FVec F S2048x6 .f32 := broadcastInDim S2048x6 ![] bcast_S_S2048x6 main_cst_4
  let main_v16 : IVec S2048x6 1 := cmpf .olt main_v14 main_v15
  fn_part1 (F := F) main_arg4 main_v13 main_v16
-- ==== Kernel.lean ====
abbrev S8x4096x2048 : Shape := ⟨3, ![8, 4096, 2048]⟩
abbrev S6x2048 : Shape := ⟨2, ![6, 2048]⟩
abbrev S6 : Shape := ⟨1, ![6]⟩
abbrev S2048x6 : Shape := ⟨2, ![2048, 6]⟩
abbrev S2048 : Shape := ⟨1, ![2048]⟩
abbrev S32768x2048 : Shape := ⟨2, ![32768, 2048]⟩
abbrev S256x128 : Shape := ⟨2, ![256, 128]⟩
abbrev S1024x2048 : Shape := ⟨2, ![1024, 2048]⟩
abbrev S8x128 : Shape := ⟨2, ![8, 128]⟩
abbrev S1024x6 : Shape := ⟨2, ![1024, 6]⟩
abbrev S1x6 : Shape := ⟨2, ![1, 6]⟩
abbrev S1 : Shape := ⟨1, ![1]⟩
abbrev S1x1 : Shape := ⟨2, ![1, 1]⟩
abbrev S6x1 : Shape := ⟨2, ![6, 1]⟩
abbrev S1024x1 : Shape := ⟨2, ![1024, 1]⟩
abbrev S1024 : Shape := ⟨1, ![1024]⟩
abbrev S1x2048 : Shape := ⟨2, ![1, 2048]⟩
abbrev S32768x1 : Shape := ⟨2, ![32768, 1]⟩
abbrev S8x4096x1 : Shape := ⟨3, ![8, 4096, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S6x2048, .f32⟩
  | .hbm, ⟨2, _⟩ => ⟨S6, .f32⟩
  | .hbm, ⟨3, _⟩ => ⟨S2048x6, .f32⟩
  | .hbm, ⟨4, _⟩ => ⟨S2048, .f32⟩
  | .hbm, ⟨5, _⟩ => ⟨S6, .f32⟩
  | .hbm, ⟨6, _⟩ => ⟨S6, .f32⟩
  | .hbm, ⟨7, _⟩ => ⟨S32768x2048, .f32⟩
  | .hbm, ⟨8, _⟩ => ⟨S6x2048, .f32⟩
  | .hbm, ⟨9, _⟩ => ⟨S32768x2048, .f32⟩
  | .hbm, ⟨10, _⟩ => ⟨S256x128, .i32⟩
  | .hbm, ⟨11, _⟩ => ⟨S8x4096x2048, .f32⟩
  | .hbm, ⟨12, _⟩ => ⟨S32768x1, .i32⟩
  | .hbm, ⟨13, _⟩ => ⟨S8x4096x1, .i32⟩
  | .local _ .vmem, ⟨0, _⟩ => ⟨S1024x2048, .f32⟩
  | .local _ .vmem, ⟨1, _⟩ => ⟨S1024x2048, .f32⟩
  | .local _ .vmem, ⟨2, _⟩ => ⟨S6x2048, .f32⟩
  | .local _ .vmem, ⟨3, _⟩ => ⟨S6, .f32⟩
  | .local _ .vmem, ⟨4, _⟩ => ⟨S6x2048, .f32⟩
  | .local _ .vmem, ⟨5, _⟩ => ⟨S2048, .f32⟩
  | .local _ .vmem, ⟨6, _⟩ => ⟨S6, .f32⟩
  | .local _ .vmem, ⟨7, _⟩ => ⟨S6, .f32⟩
  | .local _ .vmem, ⟨8, _⟩ => ⟨S1024x2048, .f32⟩
  | .local _ .vmem, ⟨9, _⟩ => ⟨S1024x2048, .f32⟩
  | .local _ .vmem, ⟨10, _⟩ => ⟨S8x128, .i32⟩
  | .local _ .vmem, ⟨11, _⟩ => ⟨S8x128, .i32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x4096x2048_S32768x2048 : S8x4096x2048.ShapeCasts S32768x2048
  transposes_S2048x6_S6x2048_1_0 : S2048x6.Transposes [1, 0] S6x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S6x2048_S6x2048_0_0 : ∀ a, (![0, 0] : Fin 2 → Nat) a + S6x2048.size a ≤ S6x2048.size a
  h_S6x2048 : 0 < S6x2048.numel
  inb_S6_S6_0 : ∀ a, (![0] : Fin 1 → Nat) a + S6.size a ≤ S6.size a
  h_S6 : 0 < S6.numel
  shapeCasts_S6x2048_S6x2048 : S6x2048.ShapeCasts S6x2048
  inb_S2048_S2048_0 : ∀ a, (![0] : Fin 1 → Nat) a + S2048.size a ≤ S2048.size a
  h_S2048 : 0 < S2048.numel
  shapeCasts_S6_S1x6 : S6.ShapeCasts S1x6
  broadcasts_S1x6_S1024x6 : S1x6.Broadcasts S1024x6
  reduces_S1x6_S1 : S1x6.Reduces [1] S1
  shapeCasts_S1_S1x1 : S1.ShapeCasts S1x1
  inpos_S1x1_p0_0 : ∀ a, (![0, 0] : Fin 2 → Nat) a < S1x1.size a
  shapeCasts_S6_S6x1 : S6.ShapeCasts S6x1
  shapeCasts_S1024x1_S1024 : S1024x1.ShapeCasts S1024
  shapeCasts_S2048_S1x2048 : S2048.ShapeCasts S1x2048
  broadcasts_S1x2048_S1024x2048 : S1x2048.Broadcasts S1024x2048
  shapeCasts_S1024_S8x128 : S1024.ShapeCasts S8x128
  inb_S8x128_S8x128_0_0 : ∀ a, (![0, 0] : Fin 2 → Nat) a + S8x128.size a ≤ S8x128.size a
  h_S8x128 : 0 < S8x128.numel
  shapeCasts_S32768x2048_S8x4096x2048 : S32768x2048.ShapeCasts S8x4096x2048
  shapeCasts_S256x128_S32768x1 : S256x128.ShapeCasts S32768x1
  shapeCasts_S32768x1_S8x4096x1 : S32768x1.ShapeCasts S8x4096x1
  dot_S1024x2048_S6x2048_S1024x6_1_1_0_0_n_n_wf : DotDims.WF S1024x2048 S6x2048 S1024x6 [1] [1] [0] [0] [] []
  dot_S1024x6_S6x1_S1024x1_1_0_0_1_n_n_wf : DotDims.WF S1024x6 S6x1 S1024x1 [1] [0] [0] [1] [] []
  dot_S1024x6_S6x2048_S1024x2048_1_0_0_1_n_n_wf : DotDims.WF S1024x6 S6x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x2048.size a ≤ S6x2048.size a
  hwx0_1 : ∀ i : grid0.Coords, EltTy.bits .f32 = 32 ∨ (Rect.block (s := S6x2048) S6x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6.size a ≤ S6.size a
  hwx0_2 : ∀ i : grid0.Coords, EltTy.bits .f32 = 32 ∨ (Rect.block (s := S6) S6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x2048.size a ≤ S6x2048.size a
  hwx0_3 : ∀ i : grid0.Coords, EltTy.bits .f32 = 32 ∨ (Rect.block (s := S6x2048) S6x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6.size a ≤ S6.size a
  hwx0_5 : ∀ i : grid0.Coords, EltTy.bits .f32 = 32 ∨ (Rect.block (s := S6) S6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6.size a ≤ S6.size a
  hwx0_6 : ∀ i : grid0.Coords, EltTy.bits .f32 = 32 ∨ (Rect.block (s := S6) S6.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S32768x2048.size a
  hwx0_7 : ∀ i : grid0.Coords, EltTy.bits .f32 = 32 ∨ (Rect.block (s := S32768x2048) S1024x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S256x128.size a
  hwx0_8 : ∀ i : grid0.Coords, EltTy.bits .i32 = 32 ∨ (Rect.block (s := S256x128) S8x128.size (cc0_transform_8 i) (hinb0_8 i)).WholeWords (EltTy.packing .i32)

variable [Facts₀]

def dot_S1024x2048_S6x2048_S1024x6_1_1_0_0_n_n : DotDims S1024x2048 S6x2048 S1024x6 where
  lhsContracting := [1]
  rhsContracting := [1]
  lhsNonContracting := [0]
  rhsNonContracting := [0]
  lhsBatch := []
  rhsBatch := []
  wf := dot_S1024x2048_S6x2048_S1024x6_1_1_0_0_n_n_wf
def dot_S1024x6_S6x1_S1024x1_1_0_0_1_n_n : DotDims S1024x6 S6x1 S1024x1 where
  lhsContracting := [1]
  rhsContracting := [0]
  lhsNonContracting := [0]
  rhsNonContracting := [1]
  lhsBatch := []
  rhsBatch := []
  wf := dot_S1024x6_S6x1_S1024x1_1_0_0_1_n_n_wf
def dot_S1024x6_S6x2048_S1024x2048_1_0_0_1_n_n : DotDims S1024x6 S6x2048 S1024x2048 where
  lhsContracting := [1]
  rhsContracting := [0]
  lhsNonContracting := [0]
  rhsNonContracting := [1]
  lhsBatch := []
  rhsBatch := []
  wf := dot_S1024x6_S6x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S6x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst) S6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst_0) S6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1024x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S6x2048 : Shape := ⟨2, ![6, 2048]⟩
abbrev S6 : Shape := ⟨1, ![6]⟩
abbrev S2048x6 : Shape := ⟨2, ![2048, 6]⟩
abbrev S2048 : Shape := ⟨1, ![2048]⟩
abbrev S_ : Shape := ⟨0, ![]⟩
abbrev S1x6 : Shape := ⟨2, ![1, 6]⟩
abbrev S8x4096x6 : Shape := ⟨3, ![8, 4096, 6]⟩
abbrev S1x1x6 : Shape := ⟨3, ![1, 1, 6]⟩
abbrev S8x4096 : Shape := ⟨2, ![8, 4096]⟩
abbrev S1x1x2048 : Shape := ⟨3, ![1, 1, 2048]⟩
abbrev S8x4096x1 : Shape := ⟨3, ![8, 4096, 1]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S6x2048, .f32⟩
  | .hbm, ⟨2, _⟩ => ⟨S6, .f32⟩
  | .hbm, ⟨3, _⟩ => ⟨S2048x6, .f32⟩
  | .hbm, ⟨4, _⟩ => ⟨S2048, .f32⟩
  | .hbm, ⟨5, _⟩ => ⟨S6, .f32⟩
  | .hbm, ⟨6, _⟩ => ⟨S6, .f32⟩
  | .hbm, ⟨7, _⟩ => ⟨S_, .f32⟩
  | .hbm, ⟨8, _⟩ => ⟨S6, .f32⟩
  | .hbm, ⟨9, _⟩ => ⟨S1x6, .f32⟩
  | .hbm, ⟨10, _⟩ => ⟨S8x4096x6, .f32⟩
  | .hbm, ⟨11, _⟩ => ⟨S1x1x6, .f32⟩
  | .hbm, ⟨12, _⟩ => ⟨S8x4096x6, .f32⟩
  | .hbm, ⟨13, _⟩ => ⟨S8x4096x6, .f32⟩
  | .hbm, ⟨14, _⟩ => ⟨S_, .f32⟩
  | .hbm, ⟨15, _⟩ => ⟨S6, .f32⟩
  | .hbm, ⟨16, _⟩ => ⟨S6, .f32⟩
  | .hbm, ⟨17, _⟩ => ⟨S_, .f32⟩
  | .hbm, ⟨18, _⟩ => ⟨S6, .f32⟩
  | .hbm, ⟨19, _⟩ => ⟨S6, .f32⟩
  | .hbm, ⟨20, _⟩ => ⟨S_, .f32⟩
  | .hbm, ⟨21, _⟩ => ⟨S6, .f32⟩
  | .hbm, ⟨22, _⟩ => ⟨S6, .f32⟩
  | .hbm, ⟨23, _⟩ => ⟨S1x1x6, .f32⟩
  | .hbm, ⟨24, _⟩ => ⟨S8x4096x6, .f32⟩
  | .hbm, ⟨25, _⟩ => ⟨S8x4096x6, .f32⟩
  | .hbm, ⟨26, _⟩ => ⟨S8x4096x6, .f32⟩
  | .hbm, ⟨27, _⟩ => ⟨S1x1x6, .f32⟩
  | .hbm, ⟨28, _⟩ => ⟨S8x4096x6, .f32⟩
  | .hbm, ⟨29, _⟩ => ⟨S8x4096x6, .f32⟩
  | .hbm, ⟨30, _⟩ => ⟨S_, .f32⟩
  | .hbm, ⟨31, _⟩ => ⟨S8x4096x6, .f32⟩
  | .hbm, ⟨32, _⟩ => ⟨S6, .f32⟩
  | .hbm, ⟨33, _⟩ => ⟨S1x1x6, .f32⟩
  | .hbm, ⟨34, _⟩ => ⟨S8x4096x6, .f32⟩
  | .hbm, ⟨35, _⟩ => ⟨S8x4096x6, .f32⟩
  | .hbm, ⟨36, _⟩ => ⟨S_, .f32⟩
  | .hbm, ⟨37, _⟩ => ⟨S6, .f32⟩
  | .hbm, ⟨38, _⟩ => ⟨S6, .f32⟩
  | .hbm, ⟨39, _⟩ => ⟨S_, .f32⟩
  | .hbm, ⟨40, _⟩ => ⟨S6, .f32⟩
  | .hbm, ⟨41, _⟩ => ⟨S6, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8x4096x6, .f32⟩
  | .hbm, ⟨46, _⟩ => ⟨S8x4096x6, .f32⟩
  | .hbm, ⟨47, _⟩ => ⟨S_, .f32⟩
  | .hbm, ⟨48, _⟩ => ⟨S8x4096x6, .f32⟩
  | .hbm, ⟨49, _⟩ => ⟨S8x4096x6, .f32⟩
  | .hbm, ⟨50, _⟩ => ⟨S_, .f32⟩
  | .hbm, ⟨51, _⟩ => ⟨S8x4096x6, .f32⟩
  | .hbm, ⟨52, _⟩ => ⟨S8x4096x6, .f32⟩
  | .hbm, ⟨53, _⟩ => ⟨S1x1x6, .f32⟩
  | .hbm, ⟨54, _⟩ => ⟨S8x4096x6, .f32⟩
  | .hbm, ⟨55, _⟩ => ⟨S8x4096x6, .f32⟩
  | .hbm, ⟨56, _⟩ => ⟨S_, .f32⟩
  | .hbm, ⟨57, _⟩ => ⟨S8x4096x6, .f32⟩
  | .hbm, ⟨58, _⟩ => ⟨S8x4096x6, .f32⟩
  | .hbm, ⟨59, _⟩ => ⟨S_, .f32⟩
  | .hbm, ⟨60, _⟩ => ⟨S8x4096x6, .f32⟩
  | .hbm, ⟨61, _⟩ => ⟨S8x4096x6, .f32⟩
  | .hbm, ⟨62, _⟩ => ⟨S8x4096x6, .f32⟩
  | .hbm, ⟨63, _⟩ => ⟨S1x1x6, .f32⟩
  | .hbm, ⟨64, _⟩ => ⟨S8x4096x6, .f32⟩
  | .hbm, ⟨65, _⟩ => ⟨S8x4096x6, .f32⟩
  | .hbm, ⟨66, _⟩ => ⟨S_, .f32⟩
  | .hbm, ⟨67, _⟩ => ⟨S8x4096x6, .f32⟩
  | .hbm, ⟨68, _⟩ => ⟨S8x4096x6, .f32⟩
  | .hbm, ⟨69, _⟩ => ⟨S1x1x6, .f32⟩
  | .hbm, ⟨70, _⟩ => ⟨S8x4096x6, .f32⟩
  | .hbm, ⟨71, _⟩ => ⟨S8x4096x6, .f32⟩
  | .hbm, ⟨72, _⟩ => ⟨S8x4096x6, .f32⟩
  | .hbm, ⟨73, _⟩ => ⟨S8x4096x6, .f32⟩
  | .hbm, ⟨74, _⟩ => ⟨S1x1x6, .f32⟩
  | .hbm, ⟨75, _⟩ => ⟨S8x4096x6, .f32⟩
  | .hbm, ⟨76, _⟩ => ⟨S8x4096x6, .f32⟩
  | .hbm, ⟨77, _⟩ => ⟨S_, .f32⟩
  | .hbm, ⟨78, _⟩ => ⟨S8x4096x6, .f32⟩
  | .hbm, ⟨79, _⟩ => ⟨S8x4096x6, .f32⟩
  | .hbm, ⟨80, _⟩ => ⟨S_, .f32⟩
  | .hbm, ⟨81, _⟩ => ⟨S6, .f32⟩
  | .hbm, ⟨82, _⟩ => ⟨S6, .f32⟩
  | .hbm, ⟨83, _⟩ => ⟨S_, .f32⟩
  | .hbm, ⟨84, _⟩ => ⟨S6, .f32⟩
  | .hbm, ⟨85, _⟩ => ⟨S6, .f32⟩
  | .hbm, ⟨86, _⟩ => ⟨S1x1x6, .f32⟩
  | .hbm, ⟨87, _⟩ => ⟨S8x4096x6, .f32⟩
  | .hbm, ⟨88, _⟩ => ⟨S8x4096x6, .f32⟩
  | .hbm, ⟨89, _⟩ => ⟨S1x1x6, .f32⟩
  | .hbm, ⟨90, _⟩ => ⟨S8x4096x6, .f32⟩
  | .hbm, ⟨91, _⟩ => ⟨S8x4096x6, .f32⟩
  | .hbm, ⟨92, _⟩ => ⟨S_, .f32⟩
  | .hbm, ⟨93, _⟩ => ⟨S8x4096, .f32⟩
  | .hbm, ⟨94, _⟩ => ⟨S8x4096, .f32⟩
  | .hbm, ⟨95, _⟩ => ⟨S8x4096, .i32⟩
  | .hbm, ⟨96, _⟩ => ⟨S8x4096x2048, .f32⟩
  | .hbm, ⟨97, _⟩ => ⟨S1x1x2048, .f32⟩
  | .hbm, ⟨98, _⟩ => ⟨S8x4096x2048, .f32⟩
  | .hbm, ⟨99, _⟩ => ⟨S8x4096x2048, .f32⟩
  | .hbm, ⟨100, _⟩ => ⟨S8x4096x1, .i32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  bcast_S_S6 : S_.BroadcastsInDim S6 (![] : Fin 0 → Fin S6.rank)
  bcast_S6_S1x6_1 : S6.BroadcastsInDim S1x6 (![1] : Fin 1 → Fin S1x6.rank)
  bcast_S6_S1x1x6_2 : S6.BroadcastsInDim S1x1x6 (![2] : Fin 1 → Fin S1x1x6.rank)
  bcast_S1x1x6_S8x4096x6_0_1_2 : S1x1x6.BroadcastsInDim S8x4096x6 (![0, 1, 2] : Fin 3 → Fin S8x4096x6.rank)
  bcast_S_S8x4096x6 : S_.BroadcastsInDim S8x4096x6 (![] : Fin 0 → Fin S8x4096x6.rank)
  shapeCasts_S1x6_S6 : S1x6.ShapeCasts S6
  reducesTo_S8x4096x6_S8x4096_d2 : S8x4096x6.ReducesTo [2] S8x4096
  h_S_ : 0 < S_.numel
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S8x4096_S8x4096x1_0_1 : S8x4096.BroadcastsInDim S8x4096x1 (![0, 1] : Fin 2 → Fin S8x4096x1.rank)
  dot_S8x4096x2048_S6x2048_S8x4096x6_2_1_01_0_n_n_wf : DotDims.WF S8x4096x2048 S6x2048 S8x4096x6 [2] [1] [0, 1] [0] [] []
  dot_S8x4096x6_S2048x6_S8x4096x2048_2_1_01_0_n_n_wf : DotDims.WF S8x4096x6 S2048x6 S8x4096x2048 [2] [1] [0, 1] [0] [] []

variable [Facts₀]

def dot_S8x4096x2048_S6x2048_S8x4096x6_2_1_01_0_n_n : DotDims S8x4096x2048 S6x2048 S8x4096x6 where
  lhsContracting := [2]
  rhsContracting := [1]
  lhsNonContracting := [0, 1]
  rhsNonContracting := [0]
  lhsBatch := []
  rhsBatch := []
  wf := dot_S8x4096x2048_S6x2048_S8x4096x6_2_1_01_0_n_n_wf
def dot_S8x4096x6_S2048x6_S8x4096x2048_2_1_01_0_n_n : DotDims S8x4096x6 S2048x6 S8x4096x2048 where
  lhsContracting := [2]
  rhsContracting := [1]
  lhsNonContracting := [0, 1]
  rhsNonContracting := [0]
  lhsBatch := []
  rhsBatch := []
  wf := dot_S8x4096x6_S2048x6_S8x4096x2048_2_1_01_0_n_n_wf

class Facts : Prop extends Facts₀ where

variable [Facts]
-- ==== Proof.Fsq.lean ====
/-
  Finite scalar quantization of a projected row, element by element on the extended reals.

  A row x of 2048 numbers is projected to six channels, h c = (sum over k of x k * win (c, k)) + bin c. Channel c has a
  level count L c (8, 8, 8, 5, 5, 5) and a place value B c (1, 8, 64, 512, 2560, 12800). With lm1 = L - 1, the soft
  clamp width s = 1 + 1 / lm1 and the grid spacing step = 2 / lm1, the channel is squashed to tanh (h / s) * s,
  clipped to [-1, 1], moved to (lm1 * (clip + 1)) / 2 + 1/2, floored, and mapped back to the code step * floor - 1.
  The row's output is the codes projected back, (sum over c of code c * wout (d, c)) + bout d, and the row's index is
  the mixed-radix number of the floored grid positions, rounded to the nearest integer and converted to a 32-bit word.

  Two spellings of this computation are stated here, one with the index written as a product with the weights
  B c / step c plus the sum of the weights, the other with the grid position recovered as (code + 1) / step and with
  the quotients by one, the product with one and the sum with zero that a single residual round leaves behind.
  The module Proof/FsqLaws.lean proves the two spellings equal.
-/
import Idealize.ShloMosaic.PureOps.Ideal
import Idealize.ShloMosaic.PureOps.Ideal.Laws
import Idealize.ShloMosaic.Lib.ValueIdx

noncomputable section

namespace Cert.Fsq

open Idealize.ShloMosaic Idealize.ShloMosaic.ValueIdx

/-! ## The float words the two programs spell their literals with -/

abbrev one : EReal := Ideal.ofBits .f32 0x3F800000#32
abbrev negOne : EReal := Ideal.ofBits .f32 0xBF800000#32
abbrev two : EReal := Ideal.ofBits .f32 0x40000000#32
abbrev half : EReal := Ideal.ofBits .f32 0x3F000000#32
abbrev zero : EReal := Ideal.ofBits .f32 0x00000000#32

/-- The level counts 8, 8, 8, 5, 5, 5 as f32 words. -/
def levelWord : Fin 6 → BitVec 32 := fun
  | 0 => 0x41000000#32 | 1 => 0x41000000#32 | 2 => 0x41000000#32 | 3 => 0x40A00000#32 | 4 => 0x40A00000#32 | 5 => 0x40A00000#32
/-- The place values 1, 8, 64, 512, 2560, 12800 as f32 words. -/
def basisWord : Fin 6 → BitVec 32 := fun
  | 0 => 0x3F800000#32 | 1 => 0x41000000#32 | 2 => 0x42800000#32 | 3 => 0x44000000#32 | 4 => 0x45200000#32 | 5 => 0x46480000#32
/-- Channel c's level count. -/
def level (c : Fin 6) : EReal := Ideal.ofBits .f32 (levelWord c)
/-- Channel c's place value. -/
def basis (c : Fin 6) : EReal := Ideal.ofBits .f32 (basisWord c)

/-! ## One channel -/

/-- Levels minus one. -/
def lm1 (L : EReal) : EReal := L - one
/-- The soft clamp's width, 1 + 1 / (L - 1). -/
def softClamp (L : EReal) : EReal := one + Ideal.div one (lm1 L)
/-- The grid spacing, 2 / (L - 1). -/
def step (L : EReal) : EReal := Ideal.div two (lm1 L)
/-- The tanh soft clamp. -/
def squash (L h : EReal) : EReal := Ideal.tanh (Ideal.div h (softClamp L)) * softClamp L
/-- The clip to [-1, 1]. -/
def clip (x : EReal) : EReal := min one (max negOne x)
/-- The grid position before the half is added: (L - 1) * (clip x + 1) / 2. -/
def gridPos (L x : EReal) : EReal := Ideal.div (lm1 L * (clip x + one)) two
/-- The quantized code step * floor (gridPos + 1/2) - 1. -/
def quantize (L x : EReal) : EReal := step L * Ideal.liftRound Int.floor (gridPos L x + half) - one
/-- The code of a projected value: the first spelling. -/
def code (L h : EReal) : EReal := quantize L (squash L h)
/-- The code in the second spelling: the squashed value over the scale one, the code times the scale one. -/
def codeScaled (L h : EReal) : EReal := quantize L (Ideal.div (squash L h) one) * one
/-- The second spelling's sum of codes over the one residual round, started from zero. -/
def codeSummed (L h : EReal) : EReal := zero + codeScaled L h

/-! ## One row -/

/-- The index word of a row from its six codes, first spelling: the codes times the weights B / step, plus the sum of
    the weights. -/
def indexWord (L B q : Fin 6 → EReal) : BitVec 32 :=
  Ideal.fptosi 32 (Ideal.liftRound Ideal.roundHalfEven
    ((∑ c : Fin 6, q c * Ideal.div (B c) (step (L c))) + ∑ c : Fin 6, Ideal.div (B c) (step (L c))))
/-- The index word, second spelling: the grid positions (q / 1 + 1) / step times the place values, summed from zero. -/
def indexWordScaled (L B q : Fin 6 → EReal) : BitVec 32 :=
  Ideal.fptosi 32 (Ideal.liftRound Ideal.roundHalfEven
    (zero + ∑ c : Fin 6, Ideal.div (Ideal.div (q c) one + one) (step (L c)) * B c))

/-! ## The arrays -/

abbrev SX : Shape := ⟨3, ![8, 4096, 2048]⟩
abbrev SWin : Shape := ⟨2, ![6, 2048]⟩
abbrev SC : Shape := ⟨1, ![6]⟩
abbrev SWout : Shape := ⟨2, ![2048, 6]⟩
abbrev SD : Shape := ⟨1, ![2048]⟩
abbrev SIdx : Shape := ⟨3, ![8, 4096, 1]⟩

/-- The projection of row (b, s) onto channel c. -/
def proj (x : SX.Idx → EReal) (win : SWin.Idx → EReal) (bin : SC.Idx → EReal) (b : Fin 8) (s : Fin 4096) (c : Fin 6) : EReal :=
  (∑ k : Fin 2048, x (ix3 b s k) * win (ix2 c k)) + bin (ix1 c)

/-- The output at (b, s, d), first spelling. -/
def outAt (x : SX.Idx → EReal) (win : SWin.Idx → EReal) (bin : SC.Idx → EReal) (wout : SWout.Idx → EReal) (bout : SD.Idx → EReal)
    (b : Fin 8) (s : Fin 4096) (d : Fin 2048) : EReal :=
  (∑ c : Fin 6, code (level c) (proj x win bin b s c) * wout (ix2 d c)) + bout (ix1 d)
/-- The output at (b, s, d), second spelling. -/
def outScaledAt (x : SX.Idx → EReal) (win : SWin.Idx → EReal) (bin : SC.Idx → EReal) (wout : SWout.Idx → EReal) (bout : SD.Idx → EReal)
    (b : Fin 8) (s : Fin 4096) (d : Fin 2048) : EReal :=
  (∑ c : Fin 6, codeSummed (level c) (proj x win bin b s c) * wout (ix2 d c)) + bout (ix1 d)
/-- The index word of row (b, s), first spelling. -/
def indexAt (x : SX.Idx → EReal) (win : SWin.Idx → EReal) (bin : SC.Idx → EReal) (b : Fin 8) (s : Fin 4096) : BitVec 32 :=
  indexWord level basis fun c => code (level c) (proj x win bin b s c)
/-- The index word of row (b, s), second spelling. -/
def indexScaledAt (x : SX.Idx → EReal) (win : SWin.Idx → EReal) (bin : SC.Idx → EReal) (b : Fin 8) (s : Fin 4096) : BitVec 32 :=
  indexWordScaled level basis fun c => codeScaled (level c) (proj x win bin b s c)

/-- The whole output array, first spelling. -/
def outArr (x : SX.Idx → EReal) (win : SWin.Idx → EReal) (bin : SC.Idx → EReal) (wout : SWout.Idx → EReal) (bout : SD.Idx → EReal) :
    SX.Idx → EReal := fun i => outAt x win bin wout bout (i 0) (i 1) (i 2)
/-- The whole index array, first spelling. -/
def indexArr (x : SX.Idx → EReal) (win : SWin.Idx → EReal) (bin : SC.Idx → EReal) : SIdx.Idx → BitVec 32 :=
  fun i => indexAt x win bin (i 0) (i 1)

end Cert.Fsq

end
-- ==== Proof.FsqLaws.lean ====
/-
  The two spellings of the quantizer (Proof/Fsq.lean) are one function. Dividing by one, multiplying by one and adding
  zero change no extended real; and for a code q = step · n − 1 with n an integer and step = 2 / (L − 1) a nonzero real,
  (q / 1 + 1) / step · B = q · (B / step) + B / step, so the two index sums agree term by term.
-/
import proofs.«403460_j23776938950706_3_alg».proof.Proof.Fsq

noncomputable section

namespace Cert.Fsq

open Idealize.ShloMosaic Idealize.ShloMosaic.ValueIdx

/-! ## The literal words as extended reals -/

theorem one_eq : one = ((1 : ℝ) : EReal) := by
  simp [one, Ideal.ofBits, Ideal.ieee, -EReal.coe_mul]; norm_num

theorem negOne_eq : negOne = ((-1 : ℝ) : EReal) := by
  simp [negOne, Ideal.ofBits, Ideal.ieee, -EReal.coe_mul]; norm_num

theorem two_eq : two = ((2 : ℝ) : EReal) := by
  simp [two, Ideal.ofBits, Ideal.ieee, -EReal.coe_mul]; norm_num

theorem half_eq : half = ((1 / 2 : ℝ) : EReal) := by
  simp [half, Ideal.ofBits, Ideal.ieee, -EReal.coe_mul]; norm_num

theorem zero_eq : zero = 0 := by
  simp [zero, Ideal.ofBits, Ideal.ieee]

theorem ofBits_eight : Ideal.ofBits .f32 0x41000000#32 = ((8 : ℝ) : EReal) := by
  simp [Ideal.ofBits, Ideal.ieee, -EReal.coe_mul]; norm_num

theorem ofBits_five : Ideal.ofBits .f32 0x40A00000#32 = ((5 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_2560 : Ideal.ofBits .f32 0x45200000#32 = ((2560 : ℝ) : EReal) := by
  simp [Ideal.ofBits, Ideal.ieee, -EReal.coe_mul]; norm_num

theorem ofBits_12800 : Ideal.ofBits .f32 0x46480000#32 = ((12800 : ℝ) : EReal) := by
  simp [Ideal.ofBits, Ideal.ieee, -EReal.coe_mul]; norm_num

/-! The level counts and the place values, channel by channel. -/

theorem level_0 : level 0 = ((8 : ℝ) : EReal) := ofBits_eight
theorem level_1 : level 1 = ((8 : ℝ) : EReal) := ofBits_eight
theorem level_2 : level 2 = ((8 : ℝ) : EReal) := ofBits_eight
theorem level_3 : level 3 = ((5 : ℝ) : EReal) := ofBits_five
theorem level_4 : level 4 = ((5 : ℝ) : EReal) := ofBits_five
theorem level_5 : level 5 = ((5 : ℝ) : EReal) := ofBits_five

theorem basis_0 : basis 0 = ((1 : ℝ) : EReal) := one_eq
theorem basis_1 : basis 1 = ((8 : ℝ) : EReal) := ofBits_eight
theorem basis_2 : basis 2 = ((64 : ℝ) : EReal) := ofBits_64
theorem basis_3 : basis 3 = ((512 : ℝ) : EReal) := ofBits_512
theorem basis_4 : basis 4 = ((2560 : ℝ) : EReal) := ofBits_2560
theorem basis_5 : basis 5 = ((12800 : ℝ) : EReal) := ofBits_12800

/-- Every level count is a real other than one. -/
theorem level_real : ∀ c : Fin 6, ∃ l : ℝ, l - 1 ≠ 0 ∧ level c = (l : EReal)
  | 0 => ⟨8, by norm_num, level_0⟩
  | 1 => ⟨8, by norm_num, level_1⟩
  | 2 => ⟨8, by norm_num, level_2⟩
  | 3 => ⟨5, by norm_num, level_3⟩
  | 4 => ⟨5, by norm_num, level_4⟩
  | 5 => ⟨5, by norm_num, level_5⟩

/-- Every place value is a real. -/
theorem basis_real : ∀ c : Fin 6, ∃ B : ℝ, basis c = (B : EReal)
  | 0 => ⟨_, basis_0⟩
  | 1 => ⟨_, basis_1⟩
  | 2 => ⟨_, basis_2⟩
  | 3 => ⟨_, basis_3⟩
  | 4 => ⟨_, basis_4⟩
  | 5 => ⟨_, basis_5⟩

/-! ## The unit laws: a quotient by one, a product with one and a sum with zero change nothing -/

theorem div_one_eq (x : EReal) : Ideal.div x one = x := by
  rw [one_eq, Ideal.div_coe one_ne_zero, div_one, EReal.coe_one, mul_one]

theorem mul_one_eq (x : EReal) : x * one = x := by
  rw [one_eq, EReal.coe_one, mul_one]

theorem zero_add_eq (x : EReal) : zero + x = x := by
  rw [zero_eq, zero_add]

/-- Scaled by one and summed from zero, the code is the code. -/
theorem codeScaled_eq_code (L h : EReal) : codeScaled L h = code L h := by
  rw [codeScaled, code, div_one_eq, mul_one_eq]

theorem codeSummed_eq_code (L h : EReal) : codeSummed L h = code L h := by
  rw [codeSummed, zero_add_eq, codeScaled_eq_code]

/-! ## The codes are reals -/

/-- The clip lies between −1 and 1, so it is a real whatever extended real is clipped. -/
theorem clip_real (x : EReal) : ∃ r : ℝ, clip x = (r : EReal) := by
  have h1 : clip x ≤ ((1 : ℝ) : EReal) := by
    rw [clip, one_eq]; exact min_le_left _ _
  have h2 : ((-1 : ℝ) : EReal) ≤ clip x := by
    rw [clip, one_eq, negOne_eq]
    exact le_min (EReal.coe_le_coe_iff.2 (by norm_num)) (le_max_left _ _)
  have ht : clip x ≠ ⊤ := ne_top_of_le_ne_top (EReal.coe_ne_top 1) h1
  have hb : clip x ≠ ⊥ := ne_bot_of_le_ne_bot (EReal.coe_ne_bot (-1)) h2
  exact ⟨(clip x).toReal, (EReal.coe_toReal ht hb).symm⟩

/-- At a real level count l ≠ 1 the grid spacing is the real 2 / (l − 1). -/
theorem step_coe (l : ℝ) (hl : l - 1 ≠ 0) : step (l : EReal) = ((2 / (l - 1) : ℝ) : EReal) := by
  rw [step, lm1, one_eq, two_eq, ← EReal.coe_sub, Ideal.div_coe hl, ← EReal.coe_mul, mul_one_div]

/-- At a real level count l ≠ 1 the quantized code is a real: the spacing times an integer, less one. -/
theorem quantize_real (l : ℝ) (hl : l - 1 ≠ 0) (x : EReal) : ∃ q : ℝ, quantize (l : EReal) x = (q : EReal) := by
  obtain ⟨r, hr⟩ := clip_real x
  rw [quantize, step_coe l hl, gridPos, lm1, hr, one_eq, two_eq, half_eq]
  simp only [← EReal.coe_sub, ← EReal.coe_add, ← EReal.coe_mul, Ideal.div_coe (two_ne_zero' ℝ), Ideal.liftRound_coe]
  exact ⟨_, rfl⟩

/-- The grid spacing of each channel is a nonzero real. -/
theorem step_level_real (c : Fin 6) : ∃ s : ℝ, s ≠ 0 ∧ step (level c) = (s : EReal) := by
  obtain ⟨l, hl, hc⟩ := level_real c
  exact ⟨2 / (l - 1), div_ne_zero two_ne_zero hl, by rw [hc, step_coe l hl]⟩

/-- The code of each channel is a real. -/
theorem code_level_real (c : Fin 6) (h : EReal) : ∃ q : ℝ, code (level c) h = (q : EReal) := by
  obtain ⟨l, hl, hc⟩ := level_real c
  rw [code, hc]
  exact quantize_real l hl _

/-! ## One channel of the index sum -/

/-- For reals q, B and s ≠ 0, the grid position (q / 1 + 1) / s times B is q · (B / s) + B / s. -/
theorem index_term (q B s : ℝ) (hs : s ≠ 0) :
    Ideal.div (Ideal.div (q : EReal) one + one) (s : EReal) * (B : EReal)
      = (q : EReal) * Ideal.div (B : EReal) (s : EReal) + Ideal.div (B : EReal) (s : EReal) := by
  rw [div_one_eq, one_eq]
  simp only [Ideal.div_coe hs, ← EReal.coe_add, ← EReal.coe_mul]
  congr 1
  ring

/-- The two index words of a row agree, whatever the six projected values are. -/
theorem indexWordScaled_eq_indexWord (h : Fin 6 → EReal) :
    indexWordScaled level basis (fun c => codeScaled (level c) (h c)) = indexWord level basis (fun c => code (level c) (h c)) := by
  choose q hq using fun c => code_level_real c (h c)
  choose s hs0 hs using step_level_real
  choose B hB using basis_real
  have key : (zero + ∑ c : Fin 6, Ideal.div (Ideal.div (codeScaled (level c) (h c)) one + one) (step (level c)) * basis c)
      = (∑ c : Fin 6, code (level c) (h c) * Ideal.div (basis c) (step (level c)))
        + ∑ c : Fin 6, Ideal.div (basis c) (step (level c)) := by
    rw [zero_add_eq, ← Finset.sum_add_distrib]
    refine Finset.sum_congr rfl fun c _ => ?_
    rw [codeScaled_eq_code, hq c, hs c, hB c]
    exact index_term (q c) (B c) (s c) (hs0 c)
  exact congrArg (fun z => Ideal.fptosi 32 (Ideal.liftRound Ideal.roundHalfEven z)) key

theorem outScaledAt_eq_outAt (x : SX.Idx → EReal) (win : SWin.Idx → EReal) (bin : SC.Idx → EReal) (wout : SWout.Idx → EReal)
    (bout : SD.Idx → EReal) (b : Fin 8) (s : Fin 4096) (d : Fin 2048) :
    outScaledAt x win bin wout bout b s d = outAt x win bin wout bout b s d := by
  simp only [outScaledAt, outAt, codeSummed_eq_code]

theorem indexScaledAt_eq_indexAt (x : SX.Idx → EReal) (win : SWin.Idx → EReal) (bin : SC.Idx → EReal) (b : Fin 8) (s : Fin 4096) :
    indexScaledAt x win bin b s = indexAt x win bin b s :=
  indexWordScaled_eq_indexWord fun c => proj x win bin b s c

end Cert.Fsq

end
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.LibLayoutIx.lean ====
/-
  LAYOUT OPERATIONS OF A HOST PROGRAM READ AT AN INDEX BUILT FROM COORDINATES — general lemmas, about no particular
  program.

  Each lemma rewrites ONE layout operation of StableHLO — `broadcastInDim`, `extractStridedSlice`, `shapeCast`,
  `transpose`, `concatenate` — applied at an index written by its coordinates (`ValueIdx.ix0` … `ix3`) to its operand
  at the index it reads, again written by coordinates. The equations are oriented left to right for `simp only`: a
  chain of layout operations applied at `ix2 n c` is pushed down to the operand's element, one rewrite per operation.
  Shapes are LITERAL (`⟨rank, ![…]⟩`), their extents variables wherever no unit axis is involved, so one lemma serves
  every program whose shapes are reducible abbreviations of such literals; the operation's side condition
  (`Shape.Slices`, `ShapeCasts`, `BroadcastsInDim`, `Transposes`, `Concatenates`) is ANY proof `h`, bound as a variable.

  What is proved:
  * a rank-0 operand broadcast to any shape reads its one element (`broadcastInDim_scalar`);
  * a rank-1 operand broadcast into a column `[N, 1]` or a row `[1, N]` reads its coordinate (`broadcastInDim_col`,
    `broadcastInDim_row`); a row `[1, N]` stretched to `[R, N]` and a column `[N, 1]` stretched to `[N, C]` read the
    unit axis at 0 (`broadcastInDim_rows`, `broadcastInDim_cols`);
  * column `k` of an `[N, C]` array and row `k` of an `[R, N]` array, sliced out as `[N, 1]` / `[1, N]`
    (`extractStridedSlice_col`, `extractStridedSlice_row`);
  * a column or a row reshaped to rank 1 (`shapeCast_col`, `shapeCast_row`), and a `[U, V, L]` table flattened to
    `[U * V, L]`, read at row `f` as `(f / V, f % V)` (`shapeCast_table`, and `shapeCast_table_2048` at the literal 4194304);
  * the transposes `[1, 0]` of rank 2 and `[2, 0, 1]` of rank 3 (`transpose_10`, `transpose_201`);
  * two columns joined along axis 1 (`concatenate_cols_zero`, `concatenate_cols_one`) and twelve rows joined along axis 0:
    row `r` is piece `r`, for the index `ix2 ⟨r, hr⟩ n` (`concatenate_rows12_0` … `_11`), for `r` a numeral of `Fin 12`
    (`concatenate_rows12_num_0` … `_11`) and for any `r` (`concatenate_rows12`, the piece picked out of `![u0, …, u11]`);
  * pointwise host operations read at an index, all by `rfl`: the host's quotient, floor, absolute value and
    round-half-even at the ideal instance, the float-to-integer conversion there, and the integer splat, sum, product,
    signed minimum and comparison.
-/
import Idealize.ShloMosaic.Lib.ValueIdx
import Idealize.ShloMosaic.Lib.Pipeline.Value

namespace Cert.LibLayoutIx

open Idealize.ShloMosaic Idealize.ShloMosaic.ValueIdx

variable {α : Type}

/-! ## Broadcasts -/

/-- A rank-0 operand broadcast to ANY shape reads its one element at every index (`dims` is the empty map). -/
theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A rank-1 operand laid down as the COLUMN `[N, 1]` reads its coordinate `n` at `(n, k)`. (When `N = 1` the
    operand's axis counts as a unit axis and is read at 0, which is then `n`.) The axis map is written at the literal
    ranks, `Fin 1 → Fin 2`, the form under which the simplifier finds the equation from a shape given by name. -/
theorem broadcastInDim_col {N : Nat} (h : (⟨1, ![N]⟩ : Shape).BroadcastsInDim ⟨2, ![N, 1]⟩ (![0] : Fin 1 → Fin 2))
    (x : (⟨1, ![N]⟩ : Shape).Idx → α) (n : Fin N) (k : Fin 1) :
    broadcastInDim ⟨2, ![N, 1]⟩ (![0] : Fin 1 → Fin 2) h x (ix2 n k) = x (ix1 n) :=
  broadcastInDim_apply _ h x _ (ix1 n) (fun a => match a with
    | ⟨0, _⟩ => by
      have hn := n.isLt
      show n.val = if N = 1 then 0 else n.val
      split
      · omega
      · rfl)

/-- A rank-1 operand laid down as the ROW `[1, N]` reads its coordinate `n` at `(k, n)`. -/
theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) (fun a => match a with
    | ⟨0, _⟩ => by
      have hn := n.isLt
      show n.val = if N = 1 then 0 else n.val
      split
      · omega
      · rfl)

/-- A ROW `[1, N]` stretched to `[R, N]` reads the row at `(0, n)`, whatever the row `r` asked for. -/
theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) (fun a => match a with
    | ⟨0, _⟩ => by
      show (0 : Nat) = if (1 : Nat) = 1 then 0 else r.val
      rfl
    | ⟨1, _⟩ => by
      have hn := n.isLt
      show n.val = if N = 1 then 0 else n.val
      split
      · omega
      · rfl)

/-- A COLUMN `[N, 1]` stretched to `[N, C]` reads the column at `(n, 0)`, whatever the column `c` asked for. -/
theorem broadcastInDim_cols {N C : Nat}
    (h : (⟨2, ![N, 1]⟩ : Shape).BroadcastsInDim ⟨2, ![N, C]⟩ (![0, 1] : Fin 2 → Fin 2))
    (x : (⟨2, ![N, 1]⟩ : Shape).Idx → α) (n : Fin N) (c : Fin C) :
    broadcastInDim ⟨2, ![N, C]⟩ (![0, 1] : Fin 2 → Fin 2) h x (ix2 n c) = x (ix2 n 0) :=
  broadcastInDim_apply _ h x _ (ix2 n 0) (fun a => match a with
    | ⟨0, _⟩ => by
      have hn := n.isLt
      show n.val = if N = 1 then 0 else n.val
      split
      · omega
      · rfl
    | ⟨1, _⟩ => by
      show (0 : Nat) = if (1 : Nat) = 1 then 0 else c.val
      rfl)

/-! ## Slices -/

/-- The column a slice `[N, 1]` at offsets `(0, k)` of an `[N, C]` array takes is inside the array. -/
theorem slice_col_lt {N C k : Nat} (h : (⟨2, ![N, C]⟩ : Shape).Slices ![0, k] ⟨2, ![N, 1]⟩) : k < C := by
  have h1 := h.2 ⟨1, Nat.one_lt_two⟩
  change k + 1 ≤ C at h1
  omega

/-- COLUMN `k` of an `[N, C]` array, sliced out as `[N, 1]`, reads the array at `(n, k)`. -/
theorem extractStridedSlice_col {N C k : Nat} (x : (⟨2, ![N, C]⟩ : Shape).Idx → α)
    (h : (⟨2, ![N, C]⟩ : Shape).Slices ![0, k] ⟨2, ![N, 1]⟩) (n : Fin N) (z : Fin 1) :
    extractStridedSlice ⟨2, ![N, 1]⟩ ![0, k] x h (ix2 n z) = x (ix2 n ⟨k, slice_col_lt h⟩) :=
  extractStridedSlice_apply _ x h _ _ (fun a => match a with
    | ⟨0, _⟩ => by show n.val = 0 + n.val; omega
    | ⟨1, _⟩ => by have hz := z.isLt; show k = k + z.val; omega)

/-- The row a slice `[1, N]` at offsets `(k, 0)` of an `[R, N]` array takes is inside the array. -/
theorem slice_row_lt {R N k : Nat} (h : (⟨2, ![R, N]⟩ : Shape).Slices ![k, 0] ⟨2, ![1, N]⟩) : k < R := by
  have h0 := h.2 ⟨0, Nat.two_pos⟩
  change k + 1 ≤ R at h0
  omega

/-- ROW `k` of an `[R, N]` array, sliced out as `[1, N]`, reads the array at `(k, n)`. -/
theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  extractStridedSlice_apply _ x h _ _ (fun a => match a with
    | ⟨0, _⟩ => by have hz := z.isLt; show k = k + z.val; omega
    | ⟨1, _⟩ => by show n.val = 0 + n.val; omega)

/-! ## Reshapes -/

/-- A column `[N, 1]` reshaped to rank 1 reads `(n, 0)` at `n`. -/
theorem shapeCast_col {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n 0) :=
  shapeCast_apply x h _ (ix2 n 0) (by
    rw [Shape.rowMajor_val_two, Shape.rowMajor_val_one]
    show n.val * 1 + 0 = n.val
    omega)

/-- A row `[1, N]` reshaped to rank 1 reads `(0, n)` at `n`. -/
theorem shapeCast_row {N : Nat} (x : (⟨2, ![1, N]⟩ : Shape).Idx → α)
    (h : (⟨2, ![1, N]⟩ : Shape).ShapeCasts ⟨1, ![N]⟩) (n : Fin N) :
    shapeCast ⟨1, ![N]⟩ x h (ix1 n) = x (ix2 0 n) :=
  shapeCast_apply x h _ (ix2 0 n) (by
    rw [Shape.rowMajor_val_two, Shape.rowMajor_val_one]
    show 0 * N + n.val = n.val
    omega)

/-- A row `m` of the flattened table lies in block `m / V`, which is one of the `U` blocks. -/
theorem table_div_lt {U V m : Nat} (hm : m < U * V) : m / V < U :=
  Nat.div_lt_of_lt_mul (Nat.mul_comm U V ▸ hm)

/-- A row `m` of the flattened table is row `m % V` of its block (a nonempty table has `0 < V`). -/
theorem table_mod_lt {U V m : Nat} (hm : m < U * V) : m % V < V := by
  rcases Nat.eq_zero_or_pos V with h0 | hV
  · rw [h0, Nat.mul_zero] at hm; exact absurd hm (Nat.not_lt_zero _)
  · exact Nat.mod_lt _ hV

/-- A `[U, V, L]` table FLATTENED to `[U * V, L]`: row `f` of the result is row `f % V` of block `f / V`. -/
theorem shapeCast_table {U V L : Nat} (x : (⟨3, ![U, V, L]⟩ : Shape).Idx → α)
    (h : (⟨3, ![U, V, L]⟩ : Shape).ShapeCasts ⟨2, ![U * V, L]⟩) (f : Fin (U * V)) (l : Fin L) :
    shapeCast ⟨2, ![U * V, L]⟩ x h (ix2 f l)
      = x (ix3 ⟨f.val / V, table_div_lt f.isLt⟩ ⟨f.val % V, table_mod_lt f.isLt⟩ l) :=
  shapeCast_apply x h _ _ (by
    rw [Shape.rowMajor_val_three, Shape.rowMajor_val_two]
    show (f.val / V * V + f.val % V) * L + l.val = f.val * L + l.val
    rw [Nat.div_add_mod'])

/-- The same with the row count written out, `2048 * 2048 = 4194304`, and two lanes: the form that matches a target
    shape given as the literal `[4194304, 2]`. -/
theorem shapeCast_table_2048 (x : (⟨3, ![2048, 2048, 2]⟩ : Shape).Idx → α)
    (h : (⟨3, ![2048, 2048, 2]⟩ : Shape).ShapeCasts ⟨2, ![4194304, 2]⟩) (f : Fin 4194304) (l : Fin 2) :
    shapeCast ⟨2, ![4194304, 2]⟩ x h (ix2 f l)
      = x (ix3 ⟨f.val / 2048, by have := f.isLt; omega⟩ ⟨f.val % 2048, by omega⟩ l) :=
  shapeCast_apply x h _ _ (by
    rw [Shape.rowMajor_val_three, Shape.rowMajor_val_two]
    show (f.val / 2048 * 2048 + f.val % 2048) * 2 + l.val = f.val * 2 + l.val
    omega)

/-! ## Transposes -/

/-- The rank-2 transpose: `(c, n)` of the result is `(n, c)` of the operand (either direction is this equation). -/
theorem transpose_10 {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- The rank-3 transpose that brings the last axis to the front: `(l, u, v)` of the result is `(u, v, l)` of the operand. -/
theorem transpose_201 {U V L : Nat} (x : (⟨3, ![U, V, L]⟩ : Shape).Idx → α)
    (h : (⟨3, ![U, V, L]⟩ : Shape).Transposes ([2, 0, 1] : List (Fin 3)) ⟨3, ![L, U, V]⟩)
    (l : Fin L) (u : Fin U) (v : Fin V) :
    transpose ⟨3, ![L, U, V]⟩ ([2, 0, 1] : List (Fin 3)) x h (ix3 l u v) = x (ix3 u v l) :=
  transpose_apply _ x h _ (ix3 u v l) (fun b => match b with
    | ⟨0, _⟩ => rfl
    | ⟨1, _⟩ => rfl
    | ⟨2, _⟩ => rfl)

/-! ## Concatenations -/

/-- Two columns joined along axis 1, read in column 0: the FIRST column. -/
theorem concatenate_cols_zero {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 0) = a (ix2 n 0) :=
  concatenate_pair_apply_left 1 a b h (ix2 n 0) rfl (ix2 n 0) (fun c => match c with
    | ⟨0, _⟩ => rfl
    | ⟨1, _⟩ => rfl)

/-- Two columns joined along axis 1, read in column 1: the SECOND column (at its own column 0). -/
theorem concatenate_cols_one {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 1) = b (ix2 n 0) :=
  concatenate_pair_apply_right 1 a b h (ix2 n 1) rfl rfl (ix2 n 0)
    (fun c hc => match c, hc with
      | ⟨0, _⟩, _ => rfl
      | ⟨1, _⟩, hc => absurd rfl hc)
    (by show 0 + 1 = 1; rfl)

section Rows12
variable {N : Nat} (u0 u1 u2 u3 u4 u5 u6 u7 u8 u9 u10 u11 : (⟨2, ![1, N]⟩ : Shape).Idx → α)

set_option quotPrecheck false in
/-- The twelve rows, each with its shape, in the order the concatenation lists them. -/
local notation "rows12" =>
  ([⟨⟨2, ![1, N]⟩, u0⟩, ⟨⟨2, ![1, N]⟩, u1⟩, ⟨⟨2, ![1, N]⟩, u2⟩, ⟨⟨2, ![1, N]⟩, u3⟩,
    ⟨⟨2, ![1, N]⟩, u4⟩, ⟨⟨2, ![1, N]⟩, u5⟩, ⟨⟨2, ![1, N]⟩, u6⟩, ⟨⟨2, ![1, N]⟩, u7⟩,
    ⟨⟨2, ![1, N]⟩, u8⟩, ⟨⟨2, ![1, N]⟩, u9⟩, ⟨⟨2, ![1, N]⟩, u10⟩, ⟨⟨2, ![1, N]⟩, u11⟩] : List ((s : Shape) × (s.Idx → α)))

variable (h : Shape.Concatenates [⟨2, ![1, N]⟩, ⟨2, ![1, N]⟩, ⟨2, ![1, N]⟩, ⟨2, ![1, N]⟩, ⟨2, ![1, N]⟩, ⟨2, ![1, N]⟩,
  ⟨2, ![1, N]⟩, ⟨2, ![1, N]⟩, ⟨2, ![1, N]⟩, ⟨2, ![1, N]⟩, ⟨2, ![1, N]⟩, ⟨2, ![1, N]⟩] ⟨2, ![12, N]⟩ 0)

/-- TWELVE ROWS joined along axis 0, read in row `R`: the piece that sits at position `R` of the list (`hx`), once the
    extents of the pieces before it are known to add up to `R` (`hp`: each piece is one row). -/
theorem concatenate_rows12_at (R : Nat) (hR : R < 12) (v : (⟨2, ![1, N]⟩ : Shape).Idx → α)
    (hx : rows12[R]'hR = ⟨⟨2, ![1, N]⟩, v⟩)
    (hp : (((List.take R rows12).map (·.1)).map fun s : Shape =>
      if h : s.rank = (⟨2, ![12, N]⟩ : Shape).rank then s.size ((0 : Fin (⟨2, ![12, N]⟩ : Shape).rank).cast h.symm) else 0).sum = R)
    (n : Fin N) :
    concatenate ⟨2, ![12, N]⟩ 0 rows12 h (ix2 ⟨R, hR⟩ n) = v (ix2 0 n) :=
  concatenate_apply_piece (t := ⟨2, ![12, N]⟩) 0 rows12 h (ix2 ⟨R, hR⟩ n) R hR ⟨2, ![1, N]⟩ v hx rfl R hp (ix2 0 n)
    (fun c hc => match c, hc with
      | ⟨0, _⟩, hc => absurd rfl hc
      | ⟨1, _⟩, _ => rfl)
    (by show R + 0 = R; rfl)

/-! Row `r` at the index `ix2 ⟨r, hr⟩ n`, `hr` any proof of the bound. -/

/-- Row 0 of the twelve joined rows is the first piece. -/
theorem concatenate_rows12_0 (hr : 0 < 12) (n : Fin N) :
    concatenate ⟨2, ![12, N]⟩ 0 rows12 h (ix2 ⟨0, hr⟩ n) = u0 (ix2 0 n) :=
  concatenate_rows12_at u0 u1 u2 u3 u4 u5 u6 u7 u8 u9 u10 u11 h 0 hr u0 rfl rfl n

/-- Row 1 of the twelve joined rows is the second piece. -/
theorem concatenate_rows12_1 (hr : 1 < 12) (n : Fin N) :
    concatenate ⟨2, ![12, N]⟩ 0 rows12 h (ix2 ⟨1, hr⟩ n) = u1 (ix2 0 n) :=
  concatenate_rows12_at u0 u1 u2 u3 u4 u5 u6 u7 u8 u9 u10 u11 h 1 hr u1 rfl rfl n

/-- Row 2 of the twelve joined rows is the third piece. -/
theorem concatenate_rows12_2 (hr : 2 < 12) (n : Fin N) :
    concatenate ⟨2, ![12, N]⟩ 0 rows12 h (ix2 ⟨2, hr⟩ n) = u2 (ix2 0 n) :=
  concatenate_rows12_at u0 u1 u2 u3 u4 u5 u6 u7 u8 u9 u10 u11 h 2 hr u2 rfl rfl n

/-- Row 3 of the twelve joined rows is the fourth piece. -/
theorem concatenate_rows12_3 (hr : 3 < 12) (n : Fin N) :
    concatenate ⟨2, ![12, N]⟩ 0 rows12 h (ix2 ⟨3, hr⟩ n) = u3 (ix2 0 n) :=
  concatenate_rows12_at u0 u1 u2 u3 u4 u5 u6 u7 u8 u9 u10 u11 h 3 hr u3 rfl rfl n

/-- Row 4 of the twelve joined rows is the fifth piece. -/
theorem concatenate_rows12_4 (hr : 4 < 12) (n : Fin N) :
    concatenate ⟨2, ![12, N]⟩ 0 rows12 h (ix2 ⟨4, hr⟩ n) = u4 (ix2 0 n) :=
  concatenate_rows12_at u0 u1 u2 u3 u4 u5 u6 u7 u8 u9 u10 u11 h 4 hr u4 rfl rfl n

/-- Row 5 of the twelve joined rows is the sixth piece. -/
theorem concatenate_rows12_5 (hr : 5 < 12) (n : Fin N) :
    concatenate ⟨2, ![12, N]⟩ 0 rows12 h (ix2 ⟨5, hr⟩ n) = u5 (ix2 0 n) :=
  concatenate_rows12_at u0 u1 u2 u3 u4 u5 u6 u7 u8 u9 u10 u11 h 5 hr u5 rfl rfl n

/-- Row 6 of the twelve joined rows is the seventh piece. -/
theorem concatenate_rows12_6 (hr : 6 < 12) (n : Fin N) :
    concatenate ⟨2, ![12, N]⟩ 0 rows12 h (ix2 ⟨6, hr⟩ n) = u6 (ix2 0 n) :=
  concatenate_rows12_at u0 u1 u2 u3 u4 u5 u6 u7 u8 u9 u10 u11 h 6 hr u6 rfl rfl n

/-- Row 7 of the twelve joined rows is the eighth piece. -/
theorem concatenate_rows12_7 (hr : 7 < 12) (n : Fin N) :
    concatenate ⟨2, ![12, N]⟩ 0 rows12 h (ix2 ⟨7, hr⟩ n) = u7 (ix2 0 n) :=
  concatenate_rows12_at u0 u1 u2 u3 u4 u5 u6 u7 u8 u9 u10 u11 h 7 hr u7 rfl rfl n

/-- Row 8 of the twelve joined rows is the ninth piece. -/
theorem concatenate_rows12_8 (hr : 8 < 12) (n : Fin N) :
    concatenate ⟨2, ![12, N]⟩ 0 rows12 h (ix2 ⟨8, hr⟩ n) = u8 (ix2 0 n) :=
  concatenate_rows12_at u0 u1 u2 u3 u4 u5 u6 u7 u8 u9 u10 u11 h 8 hr u8 rfl rfl n

/-- Row 9 of the twelve joined rows is the tenth piece. -/
theorem concatenate_rows12_9 (hr : 9 < 12) (n : Fin N) :
    concatenate ⟨2, ![12, N]⟩ 0 rows12 h (ix2 ⟨9, hr⟩ n) = u9 (ix2 0 n) :=
  concatenate_rows12_at u0 u1 u2 u3 u4 u5 u6 u7 u8 u9 u10 u11 h 9 hr u9 rfl rfl n

/-- Row 10 of the twelve joined rows is the eleventh piece. -/
theorem concatenate_rows12_10 (hr : 10 < 12) (n : Fin N) :
    concatenate ⟨2, ![12, N]⟩ 0 rows12 h (ix2 ⟨10, hr⟩ n) = u10 (ix2 0 n) :=
  concatenate_rows12_at u0 u1 u2 u3 u4 u5 u6 u7 u8 u9 u10 u11 h 10 hr u10 rfl rfl n

/-- Row 11 of the twelve joined rows is the twelfth piece. -/
theorem concatenate_rows12_11 (hr : 11 < 12) (n : Fin N) :
    concatenate ⟨2, ![12, N]⟩ 0 rows12 h (ix2 ⟨11, hr⟩ n) = u11 (ix2 0 n) :=
  concatenate_rows12_at u0 u1 u2 u3 u4 u5 u6 u7 u8 u9 u10 u11 h 11 hr u11 rfl rfl n

/-- ANY row `r` of the twelve joined rows is the piece at position `r`. -/
theorem concatenate_rows12 (r : Fin 12) (n : Fin N) :
    concatenate ⟨2, ![12, N]⟩ 0 rows12 h (ix2 r n)
      = (![u0, u1, u2, u3, u4, u5, u6, u7, u8, u9, u10, u11] r) (ix2 0 n) :=
  match r with
  | ⟨0, hr⟩ => concatenate_rows12_0 u0 u1 u2 u3 u4 u5 u6 u7 u8 u9 u10 u11 h hr n
  | ⟨1, hr⟩ => concatenate_rows12_1 u0 u1 u2 u3 u4 u5 u6 u7 u8 u9 u10 u11 h hr n
  | ⟨2, hr⟩ => concatenate_rows12_2 u0 u1 u2 u3 u4 u5 u6 u7 u8 u9 u10 u11 h hr n
  | ⟨3, hr⟩ => concatenate_rows12_3 u0 u1 u2 u3 u4 u5 u6 u7 u8 u9 u10 u11 h hr n
  | ⟨4, hr⟩ => concatenate_rows12_4 u0 u1 u2 u3 u4 u5 u6 u7 u8 u9 u10 u11 h hr n
  | ⟨5, hr⟩ => concatenate_rows12_5 u0 u1 u2 u3 u4 u5 u6 u7 u8 u9 u10 u11 h hr n
  | ⟨6, hr⟩ => concatenate_rows12_6 u0 u1 u2 u3 u4 u5 u6 u7 u8 u9 u10 u11 h hr n
  | ⟨7, hr⟩ => concatenate_rows12_7 u0 u1 u2 u3 u4 u5 u6 u7 u8 u9 u10 u11 h hr n
  | ⟨8, hr⟩ => concatenate_rows12_8 u0 u1 u2 u3 u4 u5 u6 u7 u8 u9 u10 u11 h hr n
  | ⟨9, hr⟩ => concatenate_rows12_9 u0 u1 u2 u3 u4 u5 u6 u7 u8 u9 u10 u11 h hr n
  | ⟨10, hr⟩ => concatenate_rows12_10 u0 u1 u2 u3 u4 u5 u6 u7 u8 u9 u10 u11 h hr n
  | ⟨11, hr⟩ => concatenate_rows12_11 u0 u1 u2 u3 u4 u5 u6 u7 u8 u9 u10 u11 h hr n

/-! Row `r` at the index `ix2 r n` with `r` a numeral of `Fin 12`. -/

/-- Row 0, the index's row written as a numeral. -/
theorem concatenate_rows12_num_0 (n : Fin N) :
    concatenate ⟨2, ![12, N]⟩ 0 rows12 h (ix2 (0 : Fin 12) n) = u0 (ix2 0 n) :=
  concatenate_rows12 u0 u1 u2 u3 u4 u5 u6 u7 u8 u9 u10 u11 h 0 n

/-- Row 1, the index's row written as a numeral. -/
theorem concatenate_rows12_num_1 (n : Fin N) :
    concatenate ⟨2, ![12, N]⟩ 0 rows12 h (ix2 (1 : Fin 12) n) = u1 (ix2 0 n) :=
  concatenate_rows12 u0 u1 u2 u3 u4 u5 u6 u7 u8 u9 u10 u11 h 1 n

/-- Row 2, the index's row written as a numeral. -/
theorem concatenate_rows12_num_2 (n : Fin N) :
    concatenate ⟨2, ![12, N]⟩ 0 rows12 h (ix2 (2 : Fin 12) n) = u2 (ix2 0 n) :=
  concatenate_rows12 u0 u1 u2 u3 u4 u5 u6 u7 u8 u9 u10 u11 h 2 n

/-- Row 3, the index's row written as a numeral. -/
theorem concatenate_rows12_num_3 (n : Fin N) :
    concatenate ⟨2, ![12, N]⟩ 0 rows12 h (ix2 (3 : Fin 12) n) = u3 (ix2 0 n) :=
  concatenate_rows12 u0 u1 u2 u3 u4 u5 u6 u7 u8 u9 u10 u11 h 3 n

/-- Row 4, the index's row written as a numeral. -/
theorem concatenate_rows12_num_4 (n : Fin N) :
    concatenate ⟨2, ![12, N]⟩ 0 rows12 h (ix2 (4 : Fin 12) n) = u4 (ix2 0 n) :=
  concatenate_rows12 u0 u1 u2 u3 u4 u5 u6 u7 u8 u9 u10 u11 h 4 n

/-- Row 5, the index's row written as a numeral. -/
theorem concatenate_rows12_num_5 (n : Fin N) :
    concatenate ⟨2, ![12, N]⟩ 0 rows12 h (ix2 (5 : Fin 12) n) = u5 (ix2 0 n) :=
  concatenate_rows12 u0 u1 u2 u3 u4 u5 u6 u7 u8 u9 u10 u11 h 5 n

/-- Row 6, the index's row written as a numeral. -/
theorem concatenate_rows12_num_6 (n : Fin N) :
    concatenate ⟨2, ![12, N]⟩ 0 rows12 h (ix2 (6 : Fin 12) n) = u6 (ix2 0 n) :=
  concatenate_rows12 u0 u1 u2 u3 u4 u5 u6 u7 u8 u9 u10 u11 h 6 n

/-- Row 7, the index's row written as a numeral. -/
theorem concatenate_rows12_num_7 (n : Fin N) :
    concatenate ⟨2, ![12, N]⟩ 0 rows12 h (ix2 (7 : Fin 12) n) = u7 (ix2 0 n) :=
  concatenate_rows12 u0 u1 u2 u3 u4 u5 u6 u7 u8 u9 u10 u11 h 7 n

/-- Row 8, the index's row written as a numeral. -/
theorem concatenate_rows12_num_8 (n : Fin N) :
    concatenate ⟨2, ![12, N]⟩ 0 rows12 h (ix2 (8 : Fin 12) n) = u8 (ix2 0 n) :=
  concatenate_rows12 u0 u1 u2 u3 u4 u5 u6 u7 u8 u9 u10 u11 h 8 n

/-- Row 9, the index's row written as a numeral. -/
theorem concatenate_rows12_num_9 (n : Fin N) :
    concatenate ⟨2, ![12, N]⟩ 0 rows12 h (ix2 (9 : Fin 12) n) = u9 (ix2 0 n) :=
  concatenate_rows12 u0 u1 u2 u3 u4 u5 u6 u7 u8 u9 u10 u11 h 9 n

/-- Row 10, the index's row written as a numeral. -/
theorem concatenate_rows12_num_10 (n : Fin N) :
    concatenate ⟨2, ![12, N]⟩ 0 rows12 h (ix2 (10 : Fin 12) n) = u10 (ix2 0 n) :=
  concatenate_rows12 u0 u1 u2 u3 u4 u5 u6 u7 u8 u9 u10 u11 h 10 n

/-- Row 11, the index's row written as a numeral. -/
theorem concatenate_rows12_num_11 (n : Fin N) :
    concatenate ⟨2, ![12, N]⟩ 0 rows12 h (ix2 (11 : Fin 12) n) = u11 (ix2 0 n) :=
  concatenate_rows12 u0 u1 u2 u3 u4 u5 u6 u7 u8 u9 u10 u11 h 11 n

end Rows12

/-! ## Pointwise host operations at an index -/

section Pointwise
variable {s : Shape} {φ : FTy} {w : Nat}

/-- The host's float quotient at an index is the ideal instance's division of the elements. -/
theorem host_divf_apply (a b : FVec Ideal s φ) (i : s.Idx) : Host.divf a b i = Ideal.div (a i) (b i) := rfl
/-- The host's floor at an index rounds the element down to an integer (infinities stay). -/
theorem host_floor_apply (a : FVec Ideal s φ) (i : s.Idx) : Host.floor a i = Ideal.liftRound Int.floor (a i) := rfl
/-- The host's round-to-nearest-even at an index rounds the element, ties to the even integer. -/
theorem host_roundeven_apply (a : FVec Ideal s φ) (i : s.Idx) :
    Host.roundeven a i = Ideal.liftRound Ideal.roundHalfEven (a i) := rfl
/-- The host's absolute value at an index is the larger of the element and its negation. -/
theorem host_absf_apply (a : FVec Ideal s φ) (i : s.Idx) : Host.absf a i = max (a i) (-(a i)) := rfl
/-- A float-to-signed-integer conversion at an index truncates and clamps the element. -/
theorem fptosi_apply (v : Nat) (a : FVec Ideal s φ) (i : s.Idx) : fptosi v a i = Ideal.fptosi v (a i) := rfl
/-- An integer splat reads its word everywhere. -/
theorem constantI_apply (b : BitVec w) (i : s.Idx) : constantI s w b i = b := rfl
/-- An integer sum at an index adds the elements. -/
theorem addi_apply (x y : IVec s w) (i : s.Idx) : addi x y i = IntOp.addi (x i) (y i) := rfl
/-- An integer product at an index multiplies the elements. -/
theorem muli_apply (x y : IVec s w) (i : s.Idx) : muli x y i = IntOp.muli (x i) (y i) := rfl
/-- A signed minimum at an index is the signed minimum of the elements. -/
theorem minsi_apply (x y : IVec s w) (i : s.Idx) : minsi x y i = IntOp.minsi (x i) (y i) := rfl
/-- An integer comparison at an index compares the elements. -/
theorem cmpi_apply (p : CmpIPredicate) (x y : IVec s w) (i : s.Idx) : cmpi p x y i = IntOp.cmpi p (x i) (y i) := rfl
/-- The word-level sum is the bit-vector sum … -/
theorem intOp_addi (x y : BitVec w) : IntOp.addi x y = x + y := rfl
/-- … the word-level product the bit-vector product … -/
theorem intOp_muli (x y : BitVec w) : IntOp.muli x y = x * y := rfl
/-- … and the word-level signed minimum the `if` on the signed comparison. -/
theorem intOp_minsi (x y : BitVec w) : IntOp.minsi x y = if x.slt y then x else y := rfl

end Pointwise

end Cert.LibLayoutIx
-- ==== Proof.KerPay.lean ====
/-
  The kernel body's arithmetic read at an index, on the extended reals. A block of 1024 rows x0 is projected onto the
  six channels with the weights x1 and the bias x2; with the level counts lv each projected value is squashed, clipped,
  moved onto the grid, floored and mapped back to its code (Proof/Fsq.lean, first spelling). The block's output row is
  the codes projected back with x3 plus the bias x4; the block's index word of row 128 a + l, stored at (a, l) of an
  8 × 128 tile, is the codes' product with the weights bs / step plus the sum of the weights, rounded and converted.
-/
import proofs.«403460_j23776938950706_3_alg».proof.Proof.Gen.KernelIdeal.Skeleton
import proofs.«403460_j23776938950706_3_alg».proof.Proof.Fsq
import proofs.«403460_j23776938950706_3_alg».proof.Proof.LibDots
import proofs.«403460_j23776938950706_3_alg».proof.Proof.LibLayoutIx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## Layout operations read at an index written by coordinates -/

section Layout
variable {α : Type}

/-- A vector of N entries laid as one row and repeated over R rows reads, at (r, c), the vector at c. -/
theorem rowsOf_apply {R N : Nat} (v : (⟨1, ![N]⟩ : Shape).Idx → α)
    (h1 : (⟨1, ![N]⟩ : Shape).ShapeCasts ⟨2, ![1, N]⟩) (h2 : (⟨2, ![1, N]⟩ : Shape).Broadcasts ⟨2, ![R, N]⟩)
    (r : Fin R) (c : Fin N) :
    broadcastTo ⟨2, ![R, N]⟩ (shapeCast ⟨2, ![1, N]⟩ v h1) h2 (ix2 r c) = v (ix1 c) :=
  (broadcastTo_1b_ab_apply _ h2 r c).trans (shapeCast_a_1a_apply v h1 0 c)

/-- A vector of N entries laid as a column reads, at (k, u), the vector at k. -/
theorem colOf_apply {N : Nat} (v : (⟨1, ![N]⟩ : Shape).Idx → α) (h : (⟨1, ![N]⟩ : Shape).ShapeCasts ⟨2, ![N, 1]⟩)
    (k : Fin N) (u : Fin 1) : shapeCast ⟨2, ![N, 1]⟩ v h (ix2 k u) = v (ix1 k) :=
  shapeCast_apply v h _ _ (by
    have hu : u.val = 0 := by omega
    rw [Shape.rowMajor_val_two, Shape.rowMajor_val_one]
    show k.val = k.val * 1 + u.val
    omega)

/-- A vector of n entries cut into A rows of B reads, at (a, l), the vector at B a + l. -/
theorem tile_apply {A B n : Nat} (v : (⟨1, ![n]⟩ : Shape).Idx → α) (h : (⟨1, ![n]⟩ : Shape).ShapeCasts ⟨2, ![A, B]⟩)
    (a : Fin A) (l : Fin B) (hlt : a.val * B + l.val < n) :
    shapeCast ⟨2, ![A, B]⟩ v h (ix2 a l) = v (ix1 ⟨a.val * B + l.val, hlt⟩) :=
  shapeCast_apply v h _ _ (by
    rw [Shape.rowMajor_val_two, Shape.rowMajor_val_one]
    rfl)

end Layout

/-! ## Pointwise operations of the vector unit at an index, on the extended reals -/

section Pointwise
variable {s : Shape} {φ : FTy}

theorem tanh_apply (a : FVec Ideal s φ) (i : s.Idx) : tanh a i = Ideal.tanh (a i) := rfl
theorem floor_apply (a : FVec Ideal s φ) (i : s.Idx) : floor a i = Ideal.liftRound Int.floor (a i) := rfl
theorem roundeven_apply (a : FVec Ideal s φ) (i : s.Idx) : roundeven a i = Ideal.liftRound Ideal.roundHalfEven (a i) := rfl

end Pointwise

/-! ## The sum of a short vector's entries, as the vector unit takes it -/

/-- A vector of N numbers laid as one row, summed along the row into one cell, the cell cast to a 1 × 1 array and
    read out at (0, 0): the sum of the N entries. -/
theorem total_apply {N : Nat} {φ : FTy} (v : FVec Ideal ⟨1, ![N]⟩ φ) (acc : BitVec φ.bits)
    (h1 : (⟨1, ![N]⟩ : Shape).ShapeCasts ⟨2, ![1, N]⟩) (h : (⟨2, ![1, N]⟩ : Shape).Reduces [1] ⟨1, ![1]⟩)
    (hφ : FKind.Formats φ) (hacc : acc = FKind.add.neutral φ hφ)
    (h2 : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, N]⟩ v h1) acc h hφ hacc) h2) hp
      = ∑ k : Fin N, v (ix1 k) := by
  -- the position (0, 0) written by its coordinates
  have e0 : (fun a => (⟨(![0, 0] : Fin 2 → Nat) a, hp a⟩ : Fin ((⟨2, ![1, 1]⟩ : Shape).size a)))
      = ix2 (0 : Fin 1) (0 : Fin 1) := by
    funext a
    match a with
    | ⟨0, _⟩ => rfl
    | ⟨1, _⟩ => rfl
  show shapeCast ⟨2, ![1, 1]⟩ _ h2 (fun a => ⟨(![0, 0] : Fin 2 → Nat) a, hp a⟩) = _
  rw [e0, shapeCast_a_1a_apply]
  -- the one cell of the row's sum is the sum over the row's coordinates
  refine (Ideal.multiReduction_add_single _ acc h hφ hacc (ix1 0)).trans ?_
  refine Finset.sum_congr rfl fun k _ => ?_
  have e1 : h.lift (ix1 (0 : Fin 1)) k = ix2 (0 : Fin 1) (k : Fin N) := by
    funext a; apply Fin.ext
    match a with
    | ⟨0, _⟩ => rfl
    | ⟨1, _⟩ => rfl
  rw [e1]
  exact shapeCast_a_1a_apply v h1 0 k

/-- Row r of a block projected onto channel c, plus the bias. -/
def rowProj (x0 : Vec Ideal S1024x2048 .f32) (x1 : Vec Ideal S6x2048 .f32) (x2 : Vec Ideal S6 .f32) (r : Fin 1024) (c : Fin 6) : EReal :=
  (∑ k : Fin 2048, x0 (ix2 r k) * x1 (ix2 c k)) + x2 (ix1 c)

/-- Levels minus one, channel by channel. -/
theorem pay5_apply (lv : Vec Ideal S6 .f32) (c : Fin 6) : k0_pay5 (F := Ideal) lv (ix1 c) = Cert.Fsq.lm1 (lv (ix1 c)) := by
  rfl

/-- The grid spacing, channel by channel. -/
theorem pay6_apply (lv : Vec Ideal S6 .f32) (c : Fin 6) : k0_pay6 (F := Ideal) lv (ix1 c) = Cert.Fsq.step (lv (ix1 c)) := by
  rfl

/-- The grid position of row r, channel c, before the half is added. -/
theorem pay7_apply (x0 : Vec Ideal S1024x2048 .f32) (x1 : Vec Ideal S6x2048 .f32) (x2 lv : Vec Ideal S6 .f32) (r : Fin 1024) (c : Fin 6) :
    k0_pay7 (F := Ideal) x0 x1 x2 lv (ix2 r c)
      = Cert.Fsq.gridPos (lv (ix1 c)) (Cert.Fsq.squash (lv (ix1 c)) (rowProj x0 x1 x2 r c)) := by
  have hmm : matmul (F := Ideal) (φ₁ := .f32) (φ₂ := .f32) dot_S1024x2048_S6x2048_S1024x6_1_1_0_0_n_n none x0 x1
      (constant S1024x6 .f32 0x00000000#32) (ix2 r c) = ∑ k : Fin 2048, x0 (ix2 r k) * x1 (ix2 c k) :=
    Cert.Lib.Dots.matmul_zero_rowsT_apply (φ₁ := .f32) (φ₂ := .f32) _ none x0 x1 r c
  unfold k0_pay7
  simp only [divf_apply, mulf_apply, addf_apply, minimumf_apply, maximumf_apply, tanh_apply, broadcast_apply,
    rowsOf_apply, shapeCast_self, hmm]
  rfl

/-- The code of row r, channel c. -/
theorem pay1_apply (x0 : Vec Ideal S1024x2048 .f32) (x1 : Vec Ideal S6x2048 .f32) (x2 lv : Vec Ideal S6 .f32) (r : Fin 1024) (c : Fin 6) :
    k0_pay1 (F := Ideal) (k0_pay6 lv) (k0_pay7 x0 x1 x2 lv) (Scalar.ofBits .f32 0x3F000000#32) (ix2 r c)
      = Cert.Fsq.code (lv (ix1 c)) (rowProj x0 x1 x2 r c) := by
  unfold k0_pay1
  simp only [subf_apply, mulf_apply, addf_apply, floor_apply, broadcast_apply, rowsOf_apply, pay7_apply, pay6_apply]
  rfl

/-- The block's output at (r, d): the codes of row r projected back, plus the bias. -/
theorem pay2_apply (x0 : Vec Ideal S1024x2048 .f32) (x1 : Vec Ideal S6x2048 .f32) (x2 : Vec Ideal S6 .f32) (x3 : Vec Ideal S6x2048 .f32)
    (x4 : Vec Ideal S2048 .f32) (lv : Vec Ideal S6 .f32) (r : Fin 1024) (d : Fin 2048) :
    k0_pay2 (F := Ideal) (k0_pay4 x3) x4 (k0_pay6 lv) (k0_pay7 x0 x1 x2 lv) (Scalar.ofBits .f32 0x3F000000#32) (ix2 r d)
      = (∑ c : Fin 6, Cert.Fsq.code (lv (ix1 c)) (rowProj x0 x1 x2 r c) * x3 (ix2 c d)) + x4 (ix1 d) := by
  unfold k0_pay2
  simp only [addf_apply, rowsOf_apply]
  refine congrArg (· + x4 (ix1 d)) ?_
  refine (Cert.Lib.Dots.matmul_zero_rowsCols_apply (φ₁ := .f32) (φ₂ := .f32) _ none _ _ r d).trans ?_
  refine Finset.sum_congr rfl fun c _ => ?_
  rw [pay1_apply]
  unfold k0_pay4
  rw [shapeCast_self]

/-- The block's index word at (a, l) of the 8 × 128 tile: that of row 128 a + l. -/
theorem pay3_apply (x0 : Vec Ideal S1024x2048 .f32) (x1 : Vec Ideal S6x2048 .f32) (x2 lv bs : Vec Ideal S6 .f32) (a : Fin 8) (l : Fin 128) :
    k0_pay3 (F := Ideal) bs (k0_pay6 lv) (k0_pay7 x0 x1 x2 lv) (Scalar.ofBits .f32 0x3F000000#32) (ix2 a l)
      = Cert.Fsq.indexWord (fun c => lv (ix1 c)) (fun c => bs (ix1 c))
          (fun c => Cert.Fsq.code (lv (ix1 c)) (rowProj x0 x1 x2 ⟨a.val * 128 + l.val, by have := a.isLt; have := l.isLt; omega⟩ c)) := by
  unfold k0_pay3
  dsimp only
  -- entry (a, l) of the tile is entry 128 a + l of the column of words
  refine (tile_apply _ _ a l (by have := a.isLt; have := l.isLt; omega)).trans ?_
  unfold Cert.Fsq.indexWord
  simp only [Cert.LibLayoutIx.fptosi_apply, roundeven_apply, addf_apply, broadcast_apply]
  refine congrArg (fun z => Ideal.fptosi 32 (Ideal.liftRound Ideal.roundHalfEven z)) ?_
  refine congrArg₂ (· + ·) ?_ ?_
  · -- the codes' product with the weights: a column of 1024 sums over the six channels
    refine (Cert.LibLayoutIx.shapeCast_col _ _ _).trans ?_
    refine (Cert.Lib.Dots.matmul_zero_rowsCols_apply (φ₁ := .f32) (φ₂ := .f32) _ (some .fp32) _ _ _ 0).trans ?_
    refine Finset.sum_congr rfl fun c _ => ?_
    rw [pay1_apply, colOf_apply, divf_apply, pay6_apply]
  · -- the sum of the weights
    refine (total_apply _ _ _ _ _ _ _ _).trans ?_
    refine Finset.sum_congr rfl fun c _ => ?_
    rw [divf_apply, pay6_apply]

end Cert.KernelIdeal.Pay

end
-- ==== Proof.KerSpec.lean ====
/-
  The kernel's two output arrays as functions of the arrays its region reads, in the region's own layout: the input
  flattened to 32768 rows, the output weights transposed to six rows, the level counts and place values as six-entry
  arrays. Row R is projected onto the six channels, each projected value coded (Proof/Fsq.lean, first spelling); the
  flattened output at (R, d) is the codes projected back plus the bias, and the row's index word is kept at lane
  R % 128 of tile R / 128 of a 256 × 128 array.
-/
import proofs.«403460_j23776938950706_3_alg».proof.KernelIdeal
import proofs.«403460_j23776938950706_3_alg».proof.Proof.Fsq

noncomputable section

namespace Cert.KernelIdeal.Spec

open Cert.KernelIdeal Idealize.ShloMosaic Idealize.ShloMosaic.ValueIdx

/-- Row R of the flattened input projected onto channel c, plus the bias. -/
def rowProjAt (X : Vec Ideal S32768x2048 .f32) (W1 : Vec Ideal S6x2048 .f32) (W2 : Vec Ideal S6 .f32) (R : Fin 32768) (c : Fin 6) : EReal :=
  (∑ k : Fin 2048, X (ix2 R k) * W1 (ix2 c k)) + W2 (ix1 c)

/-- The flattened output at (R, d): the codes of row R projected back with the transposed weights, plus the bias. -/
def outRow (X : Vec Ideal S32768x2048 .f32) (W1 : Vec Ideal S6x2048 .f32) (W2 : Vec Ideal S6 .f32) (W3 : Vec Ideal S6x2048 .f32)
    (W4 : Vec Ideal S2048 .f32) (W5 : Vec Ideal S6 .f32) (R : Fin 32768) (d : Fin 2048) : EReal :=
  (∑ c : Fin 6, Cert.Fsq.code (W5 (ix1 c)) (rowProjAt X W1 W2 R c) * W3 (ix2 c d)) + W4 (ix1 d)

/-- The index word of row R. -/
def idxRow (X : Vec Ideal S32768x2048 .f32) (W1 : Vec Ideal S6x2048 .f32) (W2 W5 W6 : Vec Ideal S6 .f32) (R : Fin 32768) : BitVec 32 :=
  Cert.Fsq.indexWord (fun c => W5 (ix1 c)) (fun c => W6 (ix1 c)) (fun c => Cert.Fsq.code (W5 (ix1 c)) (rowProjAt X W1 W2 R c))

/-- The flattened output array. -/
def outFlat (X : Vec Ideal S32768x2048 .f32) (W1 : Vec Ideal S6x2048 .f32) (W2 : Vec Ideal S6 .f32) (W3 : Vec Ideal S6x2048 .f32)
    (W4 : Vec Ideal S2048 .f32) (W5 : Vec Ideal S6 .f32) : Vec Ideal S32768x2048 .f32 :=
  fun j => outRow X W1 W2 W3 W4 W5 (j 0) (j 1)

/-- The index array as 256 tiles of 128 lanes: lane l of tile p is row 128 p + l. -/
def idxTiles (X : Vec Ideal S32768x2048 .f32) (W1 : Vec Ideal S6x2048 .f32) (W2 W5 W6 : Vec Ideal S6 .f32) : IVec S256x128 32 :=
  fun j => idxRow X W1 W2 W5 W6 ⟨(j 0).val * 128 + (j 1).val, by have := idx2_lt0 j; have := idx2_lt1 j; omega⟩

end Cert.KernelIdeal.Spec

end
-- ==== Proof.KerBlocks.lean ====
/-
  What the kernel's two output arrays hold after the region, as whole-array functions of the arrays the region finds.
  The grid has 32 points; point t reads rows 1024 t … 1024 t + 1023 of the flattened input, the whole weight and bias
  arrays and the two six-entry tables, writes rows 1024 t … of the flattened output and tile rows 8 t … 8 t + 7 of the
  index array. Each written block is the block of one function of the whole arrays (the body's arithmetic read at an
  index, Proof/KerPay.lean), and the 32 blocks tile each array, so each array ends holding that function.
-/
import proofs.«403460_j23776938950706_3_alg».proof.Proof.Gen.KernelIdeal.Frame
import proofs.«403460_j23776938950706_3_alg».proof.Proof.KerPay
import proofs.«403460_j23776938950706_3_alg».proof.Proof.KerSpec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pay Cert.KernelIdeal.Spec Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## A block's contents from the blocks it reads -/

/-- The output block a point leaves is the body's output payload of the loaded blocks. -/
theorem out7_eq_pay (x0 : Vec Ideal S1024x2048 .f32) (x1 : Vec Ideal S6x2048 .f32) (x2 : Vec Ideal S6 .f32) (x3 : Vec Ideal S6x2048 .f32)
    (x4 : Vec Ideal S2048 .f32) (x5 x6 : Vec Ideal S6 .f32) :
    out0_7 (F := Ideal) x0 x1 x2 x3 x4 x5 x6
      = k0_pay2 (k0_pay4 x3) x4 (k0_pay6 x5) (k0_pay7 x0 x1 x2 x5) (Scalar.ofBits .f32 0x3F000000#32) := by
  unfold out0_7
  rw [View.canon_unit_zero hz2]
  simp only [View.ld_unit_zero (S := S1024x2048) hz2, View.ld_unit_zero (S := S6x2048) hz2, View.ld_unit_zero (S := S6) hz1,
    View.ld_unit_zero (S := S2048) hz1]

/-- The index tile a point leaves is the body's index payload of the loaded blocks. -/
theorem out8_eq_pay (x0 : Vec Ideal S1024x2048 .f32) (x1 : Vec Ideal S6x2048 .f32) (x2 : Vec Ideal S6 .f32) (x3 : Vec Ideal S6x2048 .f32)
    (x4 : Vec Ideal S2048 .f32) (x5 x6 : Vec Ideal S6 .f32) :
    out0_8 (F := Ideal) x0 x1 x2 x3 x4 x5 x6
      = k0_pay3 x6 (k0_pay6 x5) (k0_pay7 x0 x1 x2 x5) (Scalar.ofBits .f32 0x3F000000#32) := by
  unfold out0_8
  rw [View.canon_unit_zero hz2]
  simp only [View.ld_unit_zero (S := S1024x2048) hz2, View.ld_unit_zero (S := S6x2048) hz2, View.ld_unit_zero (S := S6) hz1]

/-- A block of 1024 rows that is rows 1024 T … of X projects as those rows of X do. -/
theorem rowProj_block (x0 : Vec Ideal S1024x2048 .f32) (x1 : Vec Ideal S6x2048 .f32) (x2 : Vec Ideal S6 .f32)
    (X : Vec Ideal S32768x2048 .f32) (T : Nat) (hT : T < 32)
    (h0 : ∀ (r : Fin 1024) (k : Fin 2048), x0 (ix2 r k) = X (ix2 ⟨1024 * T + r.val, by have := r.isLt; omega⟩ k))
    (r : Fin 1024) (c : Fin 6) :
    rowProj x0 x1 x2 r c = rowProjAt X x1 x2 ⟨1024 * T + r.val, by have := r.isLt; omega⟩ c := by
  unfold rowProj rowProjAt
  exact congrArg (· + x2 (ix1 c)) (Finset.sum_congr rfl fun k _ => by rw [h0 r k])

/-- The output block of point T, entry (r, d), is the flattened output at (1024 T + r, d). -/
theorem out7_block (x0 : Vec Ideal S1024x2048 .f32) (x1 : Vec Ideal S6x2048 .f32) (x2 : Vec Ideal S6 .f32) (x3 : Vec Ideal S6x2048 .f32)
    (x4 : Vec Ideal S2048 .f32) (x5 x6 : Vec Ideal S6 .f32) (X : Vec Ideal S32768x2048 .f32) (T : Nat) (hT : T < 32)
    (h0 : ∀ (r : Fin 1024) (k : Fin 2048), x0 (ix2 r k) = X (ix2 ⟨1024 * T + r.val, by have := r.isLt; omega⟩ k))
    (r : Fin 1024) (d : Fin 2048) :
    out0_7 (F := Ideal) x0 x1 x2 x3 x4 x5 x6 (ix2 r d)
      = outRow X x1 x2 x3 x4 x5 ⟨1024 * T + r.val, by have := r.isLt; omega⟩ d := by
  rw [out7_eq_pay, pay2_apply]
  unfold outRow
  exact congrArg (· + x4 (ix1 d)) (Finset.sum_congr rfl fun c _ => by rw [rowProj_block x0 x1 x2 X T hT h0 r c])

/-- The index tile of point T, entry (a, l), is the index word of row 1024 T + 128 a + l. -/
theorem out8_block (x0 : Vec Ideal S1024x2048 .f32) (x1 : Vec Ideal S6x2048 .f32) (x2 : Vec Ideal S6 .f32) (x3 : Vec Ideal S6x2048 .f32)
    (x4 : Vec Ideal S2048 .f32) (x5 x6 : Vec Ideal S6 .f32) (X : Vec Ideal S32768x2048 .f32) (T : Nat) (hT : T < 32)
    (h0 : ∀ (r : Fin 1024) (k : Fin 2048), x0 (ix2 r k) = X (ix2 ⟨1024 * T + r.val, by have := r.isLt; omega⟩ k))
    (a : Fin 8) (l : Fin 128) :
    out0_8 (F := Ideal) x0 x1 x2 x3 x4 x5 x6 (ix2 a l)
      = idxRow X x1 x2 x5 x6 ⟨1024 * T + (a.val * 128 + l.val), by have := a.isLt; have := l.isLt; omega⟩ := by
  rw [out8_eq_pay, pay3_apply]
  unfold idxRow
  exact congrArg (Cert.Fsq.indexWord (fun c => x5 (ix1 c)) (fun c => x6 (ix1 c)))
    (funext fun c => by rw [rowProj_block x0 x1 x2 X T hT h0 ⟨a.val * 128 + l.val, by have := a.isLt; have := l.isLt; omega⟩ c])

/-! ## The windows' blocks as reads of the arrays the region finds -/

/-- The printed index maps over the grid: the three tiled windows move one block a point down the rows, the six whole
    windows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem lt32 (t : Fin cfg0.N) : t.val < 32 := Nat.lt_of_lt_of_eq t.isLt N_0

/-- The input block of point t is rows 1024 t … 1024 t + 1023 of the flattened input. -/
theorem iblk0_apply (c : Dev nD) (t : Fin cfg0.N) (r : Fin 1024) (k : Fin 2048) :
    (iblk m c 0 t : Vec Ideal S1024x2048 .f32) (ix2 r k)
      = (V m c main_v0 : Vec Ideal S32768x2048 .f32) (ix2 ⟨1024 * t.val + r.val, by have := lt32 t; have := r.isLt; omega⟩ k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * r.val = 1024 * t.val + r.val; rw [e0]; omega
  | ⟨1, _⟩ => show win0_0.index t (1 : Fin 2) * 2048 + 1 * k.val = k.val; rw [e1]; omega

/-- The projection weights are read whole at every point. -/
theorem iblk1_eq (c : Dev nD) (t : Fin cfg0.N) : (iblk m c 1 t : Vec Ideal S6x2048 .f32) = V m c main_arg1 := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 6 + 1 * (y 0).val = (y 0).val; rw [e0]; omega
  | ⟨1, _⟩ => show win0_1.index t (1 : Fin 2) * 2048 + 1 * (y 1).val = (y 1).val; rw [e1]; omega

/-- The projection bias is read whole at every point. -/
theorem iblk2_eq (c : Dev nD) (t : Fin cfg0.N) : (iblk m c 2 t : Vec Ideal S6 .f32) = V m c main_arg2 := by
  obtain ⟨-, -, -, -, e0, -⟩ := idx_facts t
  funext y
  unfold iblk
  rw [View.read_apply]
  show V m c main_arg2 _ = V m c main_arg2 y
  congr 1
  funext a
  apply Fin.ext
  match a with
  | ⟨0, _⟩ => show win0_2.index t (0 : Fin 1) * 6 + 1 * (y 0).val = (y 0).val; rw [e0]; omega

/-- The transposed output weights are read whole at every point. -/
theorem iblk3_eq (c : Dev nD) (t : Fin cfg0.N) : (iblk m c 3 t : Vec Ideal S6x2048 .f32) = V m c main_v1 := by
  obtain ⟨-, -, -, -, -, e0, e1, -⟩ := idx_facts t
  funext y
  unfold iblk
  rw [View.read_apply]
  show V m c main_v1 _ = V m c main_v1 y
  congr 1
  funext a
  apply Fin.ext
  match a with
  | ⟨0, _⟩ => show win0_3.index t (0 : Fin 2) * 6 + 1 * (y 0).val = (y 0).val; rw [e0]; omega
  | ⟨1, _⟩ => show win0_3.index t (1 : Fin 2) * 2048 + 1 * (y 1).val = (y 1).val; rw [e1]; omega

/-- The output bias is read whole at every point. -/
theorem iblk4_eq (c : Dev nD) (t : Fin cfg0.N) : (iblk m c 4 t : Vec Ideal S2048 .f32) = V m c main_arg4 := by
  obtain ⟨-, -, -, -, -, -, -, e0, -⟩ := idx_facts t
  funext y
  unfold iblk
  rw [View.read_apply]
  show V m c main_arg4 _ = V m c main_arg4 y
  congr 1
  funext a
  apply Fin.ext
  match a with
  | ⟨0, _⟩ => show win0_4.index t (0 : Fin 1) * 2048 + 1 * (y 0).val = (y 0).val; rw [e0]; omega

/-- The level counts are read whole at every point. -/
theorem iblk5_eq (c : Dev nD) (t : Fin cfg0.N) : (iblk m c 5 t : Vec Ideal S6 .f32) = V m c main_cst := by
  obtain ⟨-, -, -, -, -, -, -, -, e0, -⟩ := idx_facts t
  funext y
  unfold iblk
  rw [View.read_apply]
  show V m c main_cst _ = V m c main_cst y
  congr 1
  funext a
  apply Fin.ext
  match a with
  | ⟨0, _⟩ => show win0_5.index t (0 : Fin 1) * 6 + 1 * (y 0).val = (y 0).val; rw [e0]; omega

/-- The place values are read whole at every point. -/
theorem iblk6_eq (c : Dev nD) (t : Fin cfg0.N) : (iblk m c 6 t : Vec Ideal S6 .f32) = V m c main_cst_0 := by
  obtain ⟨-, -, -, -, -, -, -, -, -, e0, -⟩ := idx_facts t
  funext y
  unfold iblk
  rw [View.read_apply]
  show V m c main_cst_0 _ = V m c main_cst_0 y
  congr 1
  funext a
  apply Fin.ext
  match a with
  | ⟨0, _⟩ => show win0_6.index t (0 : Fin 1) * 6 + 1 * (y 0).val = (y 0).val; rw [e0]; omega

/-! ## What a point writes back -/

/-- Point t writes back block t of the flattened output of the arrays the region finds. -/
theorem flushed7_eq (c : Dev nD) (t : Fin cfg0.N) :
    (dats m 0 c).flushed 7 t = ((cfg0.win 7).blk t).view.read (Elt Ideal)
      (outFlat (V m c main_v0) (V m c main_arg1) (V m c main_arg2) (V m c main_v1) (V m c main_arg4) (V m c main_cst)) := by
  show (cfg0.win 7).cut (grid0.coords t) ((dats m 0 c).after 7 t) = _
  rw [after0_7]
  obtain ⟨-, -, -, -, -, -, -, -, -, -, e0, e1, -⟩ := idx_facts t
  have ht := lt32 t
  funext j
  obtain ⟨r, d, rfl⟩ : ∃ (r : Fin 1024) (d : Fin 2048), j = ix2 r d := ⟨j 0, j 1, eq_ix2 j⟩
  have hemb : ((cfg0.win 7).blk t).view.emb (ix2 r d)
      = (ix2 ⟨1024 * t.val + r.val, by have := r.isLt; omega⟩ d : S32768x2048.Idx) := by
    funext a
    apply Fin.ext
    match a with
    | ⟨0, _⟩ => show win0_7.index t (0 : Fin 2) * 1024 + 1 * r.val = 1024 * t.val + r.val; rw [e0]; omega
    | ⟨1, _⟩ => show win0_7.index t (1 : Fin 2) * 2048 + 1 * d.val = d.val; rw [e1]; omega
  show out0_7 (iblk m c 0 t) (iblk m c 1 t) (iblk m c 2 t) (iblk m c 3 t) (iblk m c 4 t) (iblk m c 5 t) (iblk m c 6 t) (ix2 r d)
    = outFlat (V m c main_v0) (V m c main_arg1) (V m c main_arg2) (V m c main_v1) (V m c main_arg4) (V m c main_cst)
        (((cfg0.win 7).blk t).view.emb (ix2 r d))
  rw [hemb]
  refine (out7_block (iblk m c 0 t) (iblk m c 1 t) (iblk m c 2 t) (iblk m c 3 t) (iblk m c 4 t) (iblk m c 5 t) (iblk m c 6 t)
    (V m c main_v0) t.val ht (fun r k => iblk0_apply m c t r k) r d).trans ?_
  rw [iblk1_eq, iblk2_eq, iblk3_eq, iblk4_eq, iblk5_eq]
  rfl

/-- Point t writes back tile rows 8 t … 8 t + 7 of the index tiles of the arrays the region finds. -/
theorem flushed8_eq (c : Dev nD) (t : Fin cfg0.N) :
    (dats m 0 c).flushed 8 t = ((cfg0.win 8).blk t).view.read (Elt Ideal)
      (idxTiles (V m c main_v0) (V m c main_arg1) (V m c main_arg2) (V m c main_cst) (V m c main_cst_0)) := by
  show (cfg0.win 8).cut (grid0.coords t) ((dats m 0 c).after 8 t) = _
  rw [after0_8]
  obtain ⟨-, -, -, -, -, -, -, -, -, -, -, -, e0, e1⟩ := idx_facts t
  have ht := lt32 t
  funext j
  obtain ⟨a, l, rfl⟩ : ∃ (a : Fin 8) (l : Fin 128), j = ix2 a l := ⟨j 0, j 1, eq_ix2 j⟩
  have hemb : ((cfg0.win 8).blk t).view.emb (ix2 a l)
      = (ix2 ⟨8 * t.val + a.val, by have := a.isLt; omega⟩ l : S256x128.Idx) := by
    funext b
    apply Fin.ext
    match b with
    | ⟨0, _⟩ => show win0_8.index t (0 : Fin 2) * 8 + 1 * a.val = 8 * t.val + a.val; rw [e0]; omega
    | ⟨1, _⟩ => show win0_8.index t (1 : Fin 2) * 128 + 1 * l.val = l.val; rw [e1]; omega
  show out0_8 (iblk m c 0 t) (iblk m c 1 t) (iblk m c 2 t) (iblk m c 3 t) (iblk m c 4 t) (iblk m c 5 t) (iblk m c 6 t) (ix2 a l)
    = idxTiles (V m c main_v0) (V m c main_arg1) (V m c main_arg2) (V m c main_cst) (V m c main_cst_0)
        (((cfg0.win 8).blk t).view.emb (ix2 a l))
  rw [hemb]
  refine (out8_block (iblk m c 0 t) (iblk m c 1 t) (iblk m c 2 t) (iblk m c 3 t) (iblk m c 4 t) (iblk m c 5 t) (iblk m c 6 t)
    (V m c main_v0) t.val ht (fun r k => iblk0_apply m c t r k) a l).trans ?_
  rw [iblk1_eq, iblk2_eq, iblk5_eq, iblk6_eq]
  show idxRow _ _ _ _ _ _ = idxRow _ _ _ _ _ _
  exact congrArg (idxRow (V m c main_v0) (V m c main_arg1) (V m c main_arg2) (V m c main_cst) (V m c main_cst_0))
    (Fin.ext (by show 1024 * t.val + (a.val * 128 + l.val) = (8 * t.val + a.val) * 128 + l.val; omega))

/-! ## The blocks tile the arrays -/

/-- An index of the flattened output is in point t's block iff each coordinate is in the block's range. -/
theorem mem_blk7 (t : Fin cfg0.N) (i : S32768x2048.Idx) :
    i ∈ ((cfg0.win 7).blk t).view.set ↔ ∀ a : Fin 2, win0_7.index t a * S1024x2048.size a ≤ (i a).val ∧ (i a).val < win0_7.index t a * S1024x2048.size a + S1024x2048.size a := by
  show i ∈ ((View.whole main_v2_0).slice (win0_7.rect t)).set ↔ _
  rw [View.set_slice_whole, Rect.mem_set_unit]
  exact Iff.rfl

/-- Row R of the flattened output is written by point R / 1024. -/
theorem cover7 (i : S32768x2048.Idx) :
    ∃ t : Fin cfg0.N, (cfg0.win 7).flush t = true ∧ i ∈ ((cfg0.win 7).blk t).view.set := by
  have hi0 : (i 0).val < 32768 := idx2_lt0 i
  have hi1 : (i 1).val < 2048 := idx2_lt1 i
  have hN : cfg0.N = 32 := N_0
  obtain ⟨t, htv⟩ : ∃ t : Fin cfg0.N, t.val = (i 0).val / 1024 := ⟨⟨(i 0).val / 1024, by rw [hN]; omega⟩, rfl⟩
  obtain ⟨-, -, -, -, -, -, -, -, -, -, e0, e1, -⟩ := idx_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [e0, htv]; omega
  | ⟨1, _⟩ => show win0_7.index t (1 : Fin 2) * 2048 ≤ (i 1).val ∧ (i 1).val < win0_7.index t (1 : Fin 2) * 2048 + 2048; rw [e1]; omega

/-- An index of the index tiles is in point t's block iff each coordinate is in the block's range. -/
theorem mem_blk8 (t : Fin cfg0.N) (i : S256x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v2_1).slice (win0_8.rect t)).set ↔ _
  rw [View.set_slice_whole, Rect.mem_set_unit]
  exact Iff.rfl

/-- Tile row p of the index tiles is written by point p / 8. -/
theorem cover8 (i : S256x128.Idx) :
    ∃ t : Fin cfg0.N, (cfg0.win 8).flush t = true ∧ i ∈ ((cfg0.win 8).blk t).view.set := by
  have hi0 : (i 0).val < 256 := idx2_lt0 i
  have hi1 : (i 1).val < 128 := idx2_lt1 i
  have hN : cfg0.N = 32 := N_0
  obtain ⟨t, htv⟩ : ∃ t : Fin cfg0.N, t.val = (i 0).val / 8 := ⟨⟨(i 0).val / 8, by rw [hN]; omega⟩, rfl⟩
  obtain ⟨-, -, -, -, -, -, -, -, -, -, -, -, e0, e1⟩ := idx_facts t
  refine ⟨t, flush0_8 t, ?_⟩
  rw [mem_blk8]
  intro a
  match a with
  | ⟨0, _⟩ => show win0_8.index t (0 : Fin 2) * 8 ≤ (i 0).val ∧ (i 0).val < win0_8.index t (0 : Fin 2) * 8 + 8; rw [e0, htv]; omega
  | ⟨1, _⟩ => show win0_8.index t (1 : Fin 2) * 128 ≤ (i 1).val ∧ (i 1).val < win0_8.index t (1 : Fin 2) * 128 + 128; rw [e1]; omega

/-! ## The arrays after the region -/

/-- The flattened output array ends holding the flattened output of the arrays the region finds. -/
theorem final7 (c : Dev nD) : (dats m 0 c).arrAt 7 cfg0.N
    = outFlat (V m c main_v0) (V m c main_arg1) (V m c main_arg2) (V m c main_v1) (V m c main_arg4) (V m c main_cst) :=
  (dats m 0 c).arrAt_eq_of_cover 7 _ (fun t _ => flushed7_eq m c t) cover7

/-- The index array ends holding the index tiles of the arrays the region finds. -/
theorem final8 (c : Dev nD) : (dats m 0 c).arrAt 8 cfg0.N
    = idxTiles (V m c main_v0) (V m c main_arg1) (V m c main_arg2) (V m c main_cst) (V m c main_cst_0) :=
  (dats m 0 c).arrAt_eq_of_cover 8 _ (fun t _ => flushed8_eq m c t) cover8

end Cert.KernelIdeal.Blocks

end
-- ==== Proof.RowsFlat.lean ====
/-
  Rows of a stack of matrices flattened into one tall matrix and back, read at an index written by coordinates: eight
  matrices of 4096 rows are the 32768 rows of one matrix, row r being row r % 4096 of matrix r / 4096; and a tall column
  of 32768 words kept as 256 tiles of 128 lanes holds row r at tile r / 128, lane r % 128.
-/
import Idealize.ShloMosaic.Lib.ValueIdx
import Idealize.ShloMosaic.Lib.Pipeline.Value

namespace Cert.RowsFlat

open Idealize.ShloMosaic Idealize.ShloMosaic.ValueIdx

variable {α : Type}

/-- The stack [8, 4096, 2048] flattened to [32768, 2048]: row r is row r % 4096 of matrix r / 4096. -/
theorem flatten_at (x : (⟨3, ![8, 4096, 2048]⟩ : Shape).Idx → α)
    (h : (⟨3, ![8, 4096, 2048]⟩ : Shape).ShapeCasts ⟨2, ![32768, 2048]⟩) (r : Fin 32768) (k : Fin 2048) :
    shapeCast ⟨2, ![32768, 2048]⟩ x h (ix2 r k)
      = x (ix3 ⟨r.val / 4096, by have := r.isLt; omega⟩ ⟨r.val % 4096, by omega⟩ k) := by
  refine shapeCast_apply x h _ _ ?_
  rw [Shape.rowMajor_val_three, Shape.rowMajor_val_two]
  show (r.val / 4096 * 4096 + r.val % 4096) * 2048 + k.val = r.val * 2048 + k.val
  omega

/-- The tall matrix [32768, 2048] cut back into the stack [8, 4096, 2048]: entry (b, s, d) is entry (4096 b + s, d). -/
theorem unflatten_at (A : (⟨2, ![32768, 2048]⟩ : Shape).Idx → α)
    (h : (⟨2, ![32768, 2048]⟩ : Shape).ShapeCasts ⟨3, ![8, 4096, 2048]⟩) (b : Fin 8) (s : Fin 4096) (d : Fin 2048) :
    shapeCast ⟨3, ![8, 4096, 2048]⟩ A h (ix3 b s d)
      = A (ix2 ⟨b.val * 4096 + s.val, by have := b.isLt; have := s.isLt; omega⟩ d) := by
  refine shapeCast_apply A h _ _ ?_
  rw [Shape.rowMajor_val_two, Shape.rowMajor_val_three]
  rfl

/-- 256 tiles of 128 lanes read as a column of 32768 rows and then as the stack [8, 4096, 1]: entry (b, s, 0) is lane
    (4096 b + s) % 128 of tile (4096 b + s) / 128. -/
theorem tiles_to_rows_at (A : (⟨2, ![256, 128]⟩ : Shape).Idx → α)
    (h1 : (⟨2, ![256, 128]⟩ : Shape).ShapeCasts ⟨2, ![32768, 1]⟩)
    (h2 : (⟨2, ![32768, 1]⟩ : Shape).ShapeCasts ⟨3, ![8, 4096, 1]⟩) (b : Fin 8) (s : Fin 4096) (z : Fin 1) :
    shapeCast ⟨3, ![8, 4096, 1]⟩ (shapeCast ⟨2, ![32768, 1]⟩ A h1) h2 (ix3 b s z)
      = A (ix2 ⟨(b.val * 4096 + s.val) / 128, by have := b.isLt; have := s.isLt; omega⟩
            ⟨(b.val * 4096 + s.val) % 128, by omega⟩) := by
  -- first the cut of the column into the stack, at the middle index (4096 b + s, 0); then the tiles read as the column
  rw [shapeCast_apply (shapeCast ⟨2, ![32768, 1]⟩ A h1) h2 (ix3 b s z)
      (ix2 ⟨b.val * 4096 + s.val, by have := b.isLt; have := s.isLt; omega⟩ 0) (by
        rw [Shape.rowMajor_val_two, Shape.rowMajor_val_three]
        show (b.val * 4096 + s.val) * 1 + 0 = (b.val * 4096 + s.val) * 1 + z.val
        have := z.isLt
        omega)]
  refine shapeCast_apply A h1 _ _ ?_
  rw [Shape.rowMajor_val_two, Shape.rowMajor_val_two]
  show (b.val * 4096 + s.val) / 128 * 128 + (b.val * 4096 + s.val) % 128 = (b.val * 4096 + s.val) * 1 + 0
  omega

end Cert.RowsFlat
-- ==== Proof.KerSpecLaws.lean ====
/-
  The kernel's arrays in the region's layout (Proof/KerSpec.lean), fed the program's arguments as the host lines before
  the region lay them out — the input flattened, the output weights transposed, the two constant tables — and read back
  through the host lines after the region, are the first spelling's arrays (Proof/Fsq.lean) of the arguments.
-/
import proofs.«403460_j23776938950706_3_alg».proof.Proof.Gen.KernelIdeal
import proofs.«403460_j23776938950706_3_alg».proof.Proof.KerSpec
import proofs.«403460_j23776938950706_3_alg».proof.Proof.RowsFlat
import proofs.«403460_j23776938950706_3_alg».proof.Proof.LibLayoutIx

noncomputable section

namespace Cert.KernelIdeal.Spec

open Cert.KernelIdeal Cert.KernelIdeal.Gen Idealize.ShloMosaic Idealize.ShloMosaic.ValueIdx

/-- The level counts as the program's constant table spells them. -/
abbrev levelTab : Vec Ideal S6 .f32 := fun i => FloatOps.ofBits (F := Ideal) .f32 (lit0 (S6.rowMajor i))
/-- The place values as the program's constant table spells them. -/
abbrev basisTab : Vec Ideal S6 .f32 := fun i => FloatOps.ofBits (F := Ideal) .f32 (lit1 (S6.rowMajor i))

/-! ## The constant tables are the level counts and the place values -/

theorem lit0_eq : ∀ c : Fin 6, lit0 c = Cert.Fsq.levelWord c := by decide

theorem lit1_eq : ∀ c : Fin 6, lit1 c = Cert.Fsq.basisWord c := by decide

/-- The row-major position of a one-coordinate index is its coordinate. -/
theorem rowMajor_ix1 (c : Fin 6) : S6.rowMajor (ix1 c) = c :=
  Fin.ext (Shape.rowMajor_val_one _)

theorem levelTab_ix1 (c : Fin 6) : levelTab (ix1 c) = Cert.Fsq.level c := by
  show Ideal.ofBits .f32 (lit0 (S6.rowMajor (ix1 c))) = Ideal.ofBits .f32 (Cert.Fsq.levelWord c)
  rw [rowMajor_ix1, lit0_eq]

theorem basisTab_ix1 (c : Fin 6) : basisTab (ix1 c) = Cert.Fsq.basis c := by
  show Ideal.ofBits .f32 (lit1 (S6.rowMajor (ix1 c))) = Ideal.ofBits .f32 (Cert.Fsq.basisWord c)
  rw [rowMajor_ix1, lit1_eq]

/-! ## Row 4096 b + s of the flattened input is row s of matrix b -/

theorem ix3_row (b : Fin 8) (s : Fin 4096) (k : Fin 2048) (h1 : (b.val * 4096 + s.val) / 4096 < 8)
    (h2 : (b.val * 4096 + s.val) % 4096 < 4096) :
    (ix3 (⟨(b.val * 4096 + s.val) / 4096, h1⟩ : Fin 8) (⟨(b.val * 4096 + s.val) % 4096, h2⟩ : Fin 4096) k
      : (⟨3, ![8, 4096, 2048]⟩ : Shape).Idx) = ix3 b s k := by
  have e1 : (⟨(b.val * 4096 + s.val) / 4096, h1⟩ : Fin 8) = b := Fin.ext (by have := s.isLt; show (b.val * 4096 + s.val) / 4096 = b.val; omega)
  have e2 : (⟨(b.val * 4096 + s.val) % 4096, h2⟩ : Fin 4096) = s := Fin.ext (by have := s.isLt; show (b.val * 4096 + s.val) % 4096 = s.val; omega)
  rw [e1, e2]

/-- The projection of row 4096 b + s of the flattened input is the projection of row (b, s). -/
theorem rowProj_flat (X : Vec Ideal S8x4096x2048 .f32) (Win : Vec Ideal S6x2048 .f32) (Bin : Vec Ideal S6 .f32)
    (b : Fin 8) (s : Fin 4096) (c : Fin 6) (hR : b.val * 4096 + s.val < 32768) :
    rowProjAt (shapeCast S32768x2048 X shapeCasts_S8x4096x2048_S32768x2048) Win Bin ⟨b.val * 4096 + s.val, hR⟩ c
      = Cert.Fsq.proj X Win Bin b s c := by
  unfold rowProjAt Cert.Fsq.proj
  congr 1
  refine Finset.sum_congr rfl fun k _ => ?_
  congr 1
  refine (Cert.RowsFlat.flatten_at X _ ⟨b.val * 4096 + s.val, hR⟩ k).trans ?_
  exact congrArg X (ix3_row b s k _ _)

/-- Read back as [8, 4096, 2048], the flattened output of the flattened input and the transposed weights is the first
    spelling's output array. -/
theorem out_final (X : Vec Ideal S8x4096x2048 .f32) (Win : Vec Ideal S6x2048 .f32) (Bin : Vec Ideal S6 .f32)
    (Wout : Vec Ideal S2048x6 .f32) (Bout : Vec Ideal S2048 .f32) :
    shapeCast S8x4096x2048
        (outFlat (shapeCast S32768x2048 X shapeCasts_S8x4096x2048_S32768x2048) Win Bin
          (transpose S6x2048 [1, 0] Wout transposes_S2048x6_S6x2048_1_0) Bout levelTab)
        shapeCasts_S32768x2048_S8x4096x2048
      = Cert.Fsq.outArr X Win Bin Wout Bout := by
  funext i
  obtain ⟨b, s, d, rfl⟩ : ∃ (b : Fin 8) (s : Fin 4096) (d : Fin 2048), i = ix3 b s d := ⟨i 0, i 1, i 2, eq_ix3 i⟩
  refine (Cert.RowsFlat.unflatten_at _ _ b s d).trans ?_
  show outRow _ Win Bin _ Bout levelTab ⟨b.val * 4096 + s.val, _⟩ d = Cert.Fsq.outAt X Win Bin Wout Bout b s d
  unfold outRow Cert.Fsq.outAt
  congr 1
  refine Finset.sum_congr rfl fun c _ => ?_
  rw [levelTab_ix1, rowProj_flat, Cert.LibLayoutIx.transpose_10]

/-- Lane R % 128 of tile R / 128 holds the index word of row R. -/
theorem idxTiles_at (Xf : Vec Ideal S32768x2048 .f32) (Win : Vec Ideal S6x2048 .f32) (Bin L B : Vec Ideal S6 .f32)
    (R : Fin 32768) (h1 : R.val / 128 < 256) (h2 : R.val % 128 < 128) :
    idxTiles Xf Win Bin L B (ix2 ⟨R.val / 128, h1⟩ ⟨R.val % 128, h2⟩) = idxRow Xf Win Bin L B R := by
  unfold idxTiles
  exact congrArg (idxRow Xf Win Bin L B) (Fin.ext (by show R.val / 128 * 128 + R.val % 128 = R.val; omega))

/-- The index word of row 4096 b + s of the flattened input is the index word of row (b, s). -/
theorem idxRow_flat (X : Vec Ideal S8x4096x2048 .f32) (Win : Vec Ideal S6x2048 .f32) (Bin : Vec Ideal S6 .f32)
    (b : Fin 8) (s : Fin 4096) (hR : b.val * 4096 + s.val < 32768) :
    idxRow (shapeCast S32768x2048 X shapeCasts_S8x4096x2048_S32768x2048) Win Bin levelTab basisTab ⟨b.val * 4096 + s.val, hR⟩
      = Cert.Fsq.indexAt X Win Bin b s := by
  unfold idxRow Cert.Fsq.indexAt
  have hL : (fun c => levelTab (ix1 c)) = Cert.Fsq.level := funext levelTab_ix1
  have hB : (fun c => basisTab (ix1 c)) = Cert.Fsq.basis := funext basisTab_ix1
  have hq : (fun c => Cert.Fsq.code (levelTab (ix1 c))
        (rowProjAt (shapeCast S32768x2048 X shapeCasts_S8x4096x2048_S32768x2048) Win Bin ⟨b.val * 4096 + s.val, hR⟩ c))
      = fun c => Cert.Fsq.code (Cert.Fsq.level c) (Cert.Fsq.proj X Win Bin b s c) :=
    funext fun c => by rw [levelTab_ix1, rowProj_flat]
  rw [hL, hB, hq]

/-- Read back as [8, 4096, 1], the index tiles of the flattened input are the first spelling's index array. -/
theorem idx_final (X : Vec Ideal S8x4096x2048 .f32) (Win : Vec Ideal S6x2048 .f32) (Bin : Vec Ideal S6 .f32) :
    shapeCast S8x4096x1
        (shapeCast S32768x1
          (idxTiles (shapeCast S32768x2048 X shapeCasts_S8x4096x2048_S32768x2048) Win Bin levelTab basisTab)
          shapeCasts_S256x128_S32768x1)
        shapeCasts_S32768x1_S8x4096x1
      = Cert.Fsq.indexArr X Win Bin := by
  funext i
  obtain ⟨b, s, z, rfl⟩ : ∃ (b : Fin 8) (s : Fin 4096) (z : Fin 1), i = ix3 b s z := ⟨i 0, i 1, i 2, eq_ix3 i⟩
  have hR : b.val * 4096 + s.val < 32768 := by have := b.isLt; have := s.isLt; omega
  refine (Cert.RowsFlat.tiles_to_rows_at _ _ _ b s z).trans ?_
  refine (idxTiles_at _ Win Bin levelTab basisTab ⟨b.val * 4096 + s.val, hR⟩ _ _).trans ?_
  exact idxRow_flat X Win Bin b s hR

end Cert.KernelIdeal.Spec

end
-- ==== Proof.KerRun.lean ====
/-
  The kernel program's run, read: @main flattens the input and transposes the output weights, the region leaves the
  flattened output and the index tiles (Proof/KerBlocks.lean), and the three reshapes after the region hand them back
  as [8, 4096, 2048] and [8, 4096, 1]. Read through those host lines the two results are the first spelling's arrays
  (Proof/Fsq.lean) of the arguments, and the arguments end as they were.
-/
import proofs.«403460_j23776938950706_3_alg».proof.Proof.KerBlocks
import proofs.«403460_j23776938950706_3_alg».proof.Proof.KerSpecLaws
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Blocks Cert.KernelIdeal.Spec Idealize.ShloMosaic.ValueIdx

variable (m : (ℓ : Loc nD τ sig) → Buf (Elt Ideal) ℓ) (ρ : Dev nD → PrngReg)

/-! ## The arrays the region finds -/

/-- The region's input is the first argument flattened to 32768 rows. -/
theorem V_v0 (c : Dev nD) : (V m c main_v0 : Vec Ideal S32768x2048 .f32)
    = shapeCast S32768x2048 (m ((c : Thread nD τ).loc main_arg0)) shapeCasts_S8x4096x2048_S32768x2048 := by
  show StableHlo.after hostOps0 (fun b => m (c, b)) (Proc.devRef .tc main_v0) = _
  after_results
  all_goals rfl

/-- The region's output weights are the fourth argument transposed. -/
theorem V_v1 (c : Dev nD) : (V m c main_v1 : Vec Ideal S6x2048 .f32)
    = transpose S6x2048 [1, 0] (m ((c : Thread nD τ).loc main_arg3)) transposes_S2048x6_S6x2048_1_0 := by
  show StableHlo.after hostOps0 (fun b => m (c, b)) (Proc.devRef .tc main_v1) = _
  after_results
  all_goals rfl

/-- The region's level counts are the constant table. -/
theorem V_cst (c : Dev nD) : (V m c main_cst : Vec Ideal S6 .f32) = levelTab := by
  show StableHlo.after hostOps0 (fun b => m (c, b)) (Proc.devRef .tc main_cst) = _
  after_results
  all_goals rfl

/-- The region's place values are the constant table. -/
theorem V_cst_0 (c : Dev nD) : (V m c main_cst_0 : Vec Ideal S6 .f32) = basisTab := by
  show StableHlo.after hostOps0 (fun b => m (c, b)) (Proc.devRef .tc main_cst_0) = _
  after_results
  all_goals rfl

/-! ## The host lines after the region -/

/-- The first result is the flattened output array read back as [8, 4096, 2048]. -/
theorem tail_v3 (c : Dev nD) : Pipeline.afterTail₀ cfgs (dats m) 0 (V0 m) [hostOps1] c main_v3
    = shapeCast S8x4096x2048 ((dats m 0 c).arrAt 7 cfg0.N) shapeCasts_S32768x2048_S8x4096x2048 := by
  unfold Pipeline.afterTail₀
  show StableHlo.after hostOps1 _ (Proc.devRef .tc main_v3) = _
  after_results
  funext i
  exact congrFun (congrArg (fun A => shapeCast S8x4096x2048 A shapeCasts_S32768x2048_S8x4096x2048)
    (Pipeline.withArrays_arr spec0 launch0.win.arr_inj c _ _ 7)) i

/-- The second result is the index tiles read back as a column of 32768 rows and then as [8, 4096, 1]. -/
theorem tail_v5 (c : Dev nD) : Pipeline.afterTail₀ cfgs (dats m) 0 (V0 m) [hostOps1] c main_v5
    = shapeCast S8x4096x1 (shapeCast S32768x1 ((dats m 0 c).arrAt 8 cfg0.N) shapeCasts_S256x128_S32768x1)
        shapeCasts_S32768x1_S8x4096x1 := by
  unfold Pipeline.afterTail₀
  show StableHlo.after hostOps1 _ (Proc.devRef .tc main_v5) = _
  after_results
  funext i
  exact congrFun (congrArg (fun A => shapeCast S8x4096x1 (shapeCast S32768x1 A shapeCasts_S256x128_S32768x1)
      shapeCasts_S32768x1_S8x4096x1)
    (Pipeline.withArrays_arr spec0 launch0.win.arr_inj c _ _ 8)) i

/-- The first result is the first spelling's output array of the arguments. -/
theorem out_eq (c : Dev nD) : Pipeline.afterTail₀ cfgs (dats m) 0 (V0 m) [hostOps1] c main_v3
    = Cert.Fsq.outArr (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_v3, final7, V_v0, V_main_arg1, V_main_arg2, V_v1, V_main_arg4, V_cst]
  exact out_final _ _ _ _ _

/-- The second result is the first spelling's index array of the arguments. -/
theorem idx_eq (c : Dev nD) : Pipeline.afterTail₀ cfgs (dats m) 0 (V0 m) [hostOps1] c main_v5
    = Cert.Fsq.indexArr (m ((c : Thread nD τ).loc main_arg0)) (m ((c : Thread nD τ).loc main_arg1)) (m ((c : Thread nD τ).loc main_arg2)) := by
  rw [tail_v5, final8, V_v0, V_main_arg1, V_main_arg2, V_cst, V_cst_0]
  exact idx_final _ _ _

/-! ## The run -/

/-- Every weakly fair execution of the kernel program terminates with the two results at the first spelling's arrays of
    the arguments and the arguments unchanged. -/
theorem run : θ_run defs (onTc (τ := τ) (main (F := Ideal))) ⟨m, fun _ => 0, ρ⟩ fun r => ∀ c : Dev nD,
      r.2.mem ((c.tc : Thread nD τ).loc main_v3)
          = Cert.Fsq.outArr (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v5)
          = Cert.Fsq.indexArr (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (out_eq m c),
      ((h c).2 main_v5 (Pipeline.mem_restRefs_of main_v5 (by decide) (by decide))).trans (idx_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Run

end
-- ==== Proof.RefOps.lean ====
import proofs.«403460_j23776938950706_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 96 operations, in order. -/
abbrev ops : List (HloOp τ sig (Elt F)) :=
  [ StableHlo.nullary main_cst (fun i => FloatOps.ofBits .f32 (lit0 (S6.rowMajor i))),
    StableHlo.nullary main_cst_0 (fun i => FloatOps.ofBits .f32 (lit1 (S6.rowMajor i))),
    StableHlo.nullary main_cst_1 (constant S_ .f32 0x3F800000#32),
    StableHlo.unary main_cst_1 main_v0 (broadcastInDim S6 ![] bcast_S_S6 : (⟨S_, .f32⟩ : BufTy).Contents (Elt F) → (⟨S6, .f32⟩ : BufTy).Contents (Elt F)),
    StableHlo.unary main_v0 main_v1 (broadcastInDim S1x6 ![1] bcast_S6_S1x6_1 : (⟨S6, .f32⟩ : BufTy).Contents (Elt F) → (⟨S1x6, .f32⟩ : BufTy).Contents (Elt F)),
    StableHlo.binary main_arg0 main_arg1 main_v2 ((fun l r => Host.dotGeneral dot_S8x4096x2048_S6x2048_S8x4096x6_2_1_01_0_n_n none l r) : (⟨S8x4096x2048, .f32⟩ : BufTy).Contents (Elt F) → (⟨S6x2048, .f32⟩ : BufTy).Contents (Elt F) → (⟨S8x4096x6, .f32⟩ : BufTy).Contents (Elt F)),
    StableHlo.unary main_arg2 main_v3 (broadcastInDim S1x1x6 ![2] bcast_S6_S1x1x6_2 : (⟨S6, .f32⟩ : BufTy).Contents (Elt F) → (⟨S1x1x6, .f32⟩ : BufTy).Contents (Elt F)),
    StableHlo.unary main_v3 main_v4 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v2 main_v4 main_v5 (addf : (⟨S8x4096x6, .f32⟩ : BufTy).Contents (Elt F) → (⟨S8x4096x6, .f32⟩ : BufTy).Contents (Elt F) → (⟨S8x4096x6, .f32⟩ : BufTy).Contents (Elt F)),
    StableHlo.nullary main_cst_2 (constant S_ .f32 0x3F800000#32),
    StableHlo.unary main_cst_2 main_v6 (broadcastInDim S6 ![] bcast_S_S6 : (⟨S_, .f32⟩ : BufTy).Contents (Elt F) → (⟨S6, .f32⟩ : BufTy).Contents (Elt F)),
    StableHlo.binary main_cst main_v6 main_v7 (subf : (⟨S6, .f32⟩ : BufTy).Contents (Elt F) → (⟨S6, .f32⟩ : BufTy).Contents (Elt F) → (⟨S6, .f32⟩ : BufTy).Contents (Elt F)),
    StableHlo.nullary main_cst_3 (constant S_ .f32 0x3F800000#32),
    StableHlo.unary main_cst_3 main_v8 (broadcastInDim S6 ![] bcast_S_S6 : (⟨S_, .f32⟩ : BufTy).Contents (Elt F) → (⟨S6, .f32⟩ : BufTy).Contents (Elt F)),
    StableHlo.binary main_v8 main_v7 main_v9 (Host.divf : (⟨S6, .f32⟩ : BufTy).Contents (Elt F) → (⟨S6, .f32⟩ : BufTy).Contents (Elt F) → (⟨S6, .f32⟩ : BufTy).Contents (Elt F)),
    StableHlo.nullary main_cst_4 (constant S_ .f32 0x3F800000#32),
    StableHlo.unary main_cst_4 main_v10 (broadcastInDim S6 ![] bcast_S_S6 : (⟨S_, .f32⟩ : BufTy).Contents (Elt F) → (⟨S6, .f32⟩ : BufTy).Contents (Elt F)),
    StableHlo.binary main_v10 main_v9 main_v11 (addf : (⟨S6, .f32⟩ : BufTy).Contents (Elt F) → (⟨S6, .f32⟩ : BufTy).Contents (Elt F) → (⟨S6, .f32⟩ : BufTy).Contents (Elt F)),
    StableHlo.unary main_v11 main_v12 (broadcastInDim S1x1x6 ![2] bcast_S6_S1x1x6_2 : (⟨S6, .f32⟩ : BufTy).Contents (Elt F) → (⟨S1x1x6, .f32⟩ : BufTy).Contents (Elt F)),
    StableHlo.unary main_v12 main_v13 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v5 main_v13 main_v14 (Host.divf : (⟨S8x4096x6, .f32⟩ : BufTy).Contents (Elt F) → (⟨S8x4096x6, .f32⟩ : BufTy).Contents (Elt F) → (⟨S8x4096x6, .f32⟩ : BufTy).Contents (Elt F)),
    StableHlo.unary main_v14 main_v15 (Host.tanh : (⟨S8x4096x6, .f32⟩ : BufTy).Contents (Elt F) → (⟨S8x4096x6, .f32⟩ : BufTy).Contents (Elt F)),
    StableHlo.unary main_v11 main_v16 (broadcastInDim S1x1x6 ![2] bcast_S6_S1x1x6_2 : (⟨S6, .f32⟩ : BufTy).Contents (Elt F) → (⟨S1x1x6, .f32⟩ : BufTy).Contents (Elt F)),
    StableHlo.unary main_v16 main_v17 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v15 main_v17 main_v18 (mulf : (⟨S8x4096x6, .f32⟩ : BufTy).Contents (Elt F) → (⟨S8x4096x6, .f32⟩ : BufTy).Contents (Elt F) → (⟨S8x4096x6, .f32⟩ : BufTy).Contents (Elt F)),
    StableHlo.nullary main_cst_5 (constant S_ .f32 0x00000000#32),
    StableHlo.unary main_cst_5 main_v19 (broadcastInDim S8x4096x6 ![] bcast_S_S8x4096x6 : (⟨S_, .f32⟩ : BufTy).Contents (Elt F) → (⟨S8x4096x6, .f32⟩ : BufTy).Contents (Elt F)),
    StableHlo.reshape main_v1 main_v20 rfl shapeCasts_S1x6_S6,
    StableHlo.unary main_v20 main_v21 (broadcastInDim S1x1x6 ![2] bcast_S6_S1x1x6_2 : (⟨S6, .f32⟩ : BufTy).Contents (Elt F) → (⟨S1x1x6, .f32⟩ : BufTy).Contents (Elt F)),
    StableHlo.unary main_v21 main_v22 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v18 main_v22 main_v23 (Host.divf : (⟨S8x4096x6, .f32⟩ : BufTy).Contents (Elt F) → (⟨S8x4096x6, .f32⟩ : BufTy).Contents (Elt F) → (⟨S8x4096x6, .f32⟩ : BufTy).Contents (Elt F)),
    StableHlo.nullary main_cst_6 (constant S_ .f32 0x3F800000#32),
    StableHlo.unary main_cst_6 main_v24 (broadcastInDim S6 ![] bcast_S_S6 : (⟨S_, .f32⟩ : BufTy).Contents (Elt F) → (⟨S6, .f32⟩ : BufTy).Contents (Elt F)),
    StableHlo.binary main_cst main_v24 main_v25 (subf : (⟨S6, .f32⟩ : BufTy).Contents (Elt F) → (⟨S6, .f32⟩ : BufTy).Contents (Elt F) → (⟨S6, .f32⟩ : BufTy).Contents (Elt F)),
    StableHlo.nullary main_cst_7 (constant S_ .f32 0x40000000#32),
    StableHlo.unary main_cst_7 main_v26 (broadcastInDim S6 ![] bcast_S_S6 : (⟨S_, .f32⟩ : BufTy).Contents (Elt F) → (⟨S6, .f32⟩ : BufTy).Contents (Elt F)),
    StableHlo.binary main_v26 main_v25 main_v27 (Host.divf : (⟨S6, .f32⟩ : BufTy).Contents (Elt F) → (⟨S6, .f32⟩ : BufTy).Contents (Elt F) → (⟨S6, .f32⟩ : BufTy).Contents (Elt F)),
    StableHlo.nullary main_cst_8 (constant S_ .f32 0xBF800000#32),
    StableHlo.nullary main_cst_9 (constant S_ .f32 0x3F800000#32),
    StableHlo.TRef.unary (.of main_cst_8) main_call0.v0 id,
    StableHlo.TRef.unary main_call0.v0 main_call0.v1 (broadcastInDim S8x4096x6 ![] bcast_S_S8x4096x6),
    StableHlo.TRef.binary main_call0.v1 (.of main_v23) main_call0.v2 maximumf,
    StableHlo.TRef.unary (.of main_cst_9) main_call0.v3 id,
    StableHlo.TRef.unary main_call0.v3 main_call0.v4 (broadcastInDim S8x4096x6 ![] bcast_S_S8x4096x6),
    StableHlo.TRef.binary main_call0.v4 main_call0.v2 main_call0.v5 minimumf,
    StableHlo.nullary main_cst_10 (constant S_ .f32 0x3F800000#32),
    StableHlo.unary main_cst_10 main_v29 (broadcastInDim S8x4096x6 ![] bcast_S_S8x4096x6 : (⟨S_, .f32⟩ : BufTy).Contents (Elt F) → (⟨S8x4096x6, .f32⟩ : BufTy).Contents (Elt F)),
    StableHlo.binary main_v28 main_v29 main_v30 (addf : (⟨S8x4096x6, .f32⟩ : BufTy).Contents (Elt F) → (⟨S8x4096x6, .f32⟩ : BufTy).Contents (Elt F) → (⟨S8x4096x6, .f32⟩ : BufTy).Contents (Elt F)),
    StableHlo.unary main_v25 main_v31 (broadcastInDim S1x1x6 ![2] bcast_S6_S1x1x6_2 : (⟨S6, .f32⟩ : BufTy).Contents (Elt F) → (⟨S1x1x6, .f32⟩ : BufTy).Contents (Elt F)),
    StableHlo.unary main_v31 main_v32 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v32 main_v30 main_v33 (mulf : (⟨S8x4096x6, .f32⟩ : BufTy).Contents (Elt F) → (⟨S8x4096x6, .f32⟩ : BufTy).Contents (Elt F) → (⟨S8x4096x6, .f32⟩ : BufTy).Contents (Elt F)),
    StableHlo.nullary main_cst_11 (constant S_ .f32 0x40000000#32),
    StableHlo.unary main_cst_11 main_v34 (broadcastInDim S8x4096x6 ![] bcast_S_S8x4096x6 : (⟨S_, .f32⟩ : BufTy).Contents (Elt F) → (⟨S8x4096x6, .f32⟩ : BufTy).Contents (Elt F)),
    StableHlo.binary main_v33 main_v34 main_v35 (Host.divf : (⟨S8x4096x6, .f32⟩ : BufTy).Contents (Elt F) → (⟨S8x4096x6, .f32⟩ : BufTy).Contents (Elt F) → (⟨S8x4096x6, .f32⟩ : BufTy).Contents (Elt F)),
    StableHlo.nullary main_cst_12 (constant S_ .f32 0x3F000000#32),
    StableHlo.unary main_cst_12 main_v36 (broadcastInDim S8x4096x6 ![] bcast_S_S8x4096x6 : (⟨S_, .f32⟩ : BufTy).Contents (Elt F) → (⟨S8x4096x6, .f32⟩ : BufTy).Contents (Elt F)),
    StableHlo.binary main_v35 main_v36 main_v37 (addf : (⟨S8x4096x6, .f32⟩ : BufTy).Contents (Elt F) → (⟨S8x4096x6, .f32⟩ : BufTy).Contents (Elt F) → (⟨S8x4096x6, .f32⟩ : BufTy).Contents (Elt F)),
    StableHlo.unary main_v37 main_v38 (Host.floor : (⟨S8x4096x6, .f32⟩ : BufTy).Contents (Elt F) → (⟨S8x4096x6, .f32⟩ : BufTy).Contents (Elt F)),
    StableHlo.unary main_v27 main_v39 (broadcastInDim S1x1x6 ![2] bcast_S6_S1x1x6_2 : (⟨S6, .f32⟩ : BufTy).Contents (Elt F) → (⟨S1x1x6, .f32⟩ : BufTy).Contents (Elt F)),
    StableHlo.unary main_v39 main_v40 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v40 main_v38 main_v41 (mulf : (⟨S8x4096x6, .f32⟩ : BufTy).Contents (Elt F) → (⟨S8x4096x6, .f32⟩ : BufTy).Contents (Elt F) → (⟨S8x4096x6, .f32⟩ : BufTy).Contents (Elt F)),
    StableHlo.nullary main_cst_13 (constant S_ .f32 0x3F800000#32),
    StableHlo.unary main_cst_13 main_v42 (broadcastInDim S8x4096x6 ![] bcast_S_S8x4096x6 : (⟨S_, .f32⟩ : BufTy).Contents (Elt F) → (⟨S8x4096x6, .f32⟩ : BufTy).Contents (Elt F)),
    StableHlo.binary main_v41 main_v42 main_v43 (subf : (⟨S8x4096x6, .f32⟩ : BufTy).Contents (Elt F) → (⟨S8x4096x6, .f32⟩ : BufTy).Contents (Elt F) → (⟨S8x4096x6, .f32⟩ : BufTy).Contents (Elt F)),
    StableHlo.unary main_v20 main_v44 (broadcastInDim S1x1x6 ![2] bcast_S6_S1x1x6_2 : (⟨S6, .f32⟩ : BufTy).Contents (Elt F) → (⟨S1x1x6, .f32⟩ : BufTy).Contents (Elt F)),
    StableHlo.unary main_v44 main_v45 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v43 main_v45 main_v46 (mulf : (⟨S8x4096x6, .f32⟩ : BufTy).Contents (Elt F) → (⟨S8x4096x6, .f32⟩ : BufTy).Contents (Elt F) → (⟨S8x4096x6, .f32⟩ : BufTy).Contents (Elt F)),
    StableHlo.binary main_v18 main_v46 main_v47 (subf : (⟨S8x4096x6, .f32⟩ : BufTy).Contents (Elt F) → (⟨S8x4096x6, .f32⟩ : BufTy).Contents (Elt F) → (⟨S8x4096x6, .f32⟩ : BufTy).Contents (Elt F)),
    StableHlo.binary main_v19 main_v46 main_v48 (addf : (⟨S8x4096x6, .f32⟩ : BufTy).Contents (Elt F) → (⟨S8x4096x6, .f32⟩ : BufTy).Contents (Elt F) → (⟨S8x4096x6, .f32⟩ : BufTy).Contents (Elt F)),
    StableHlo.unary main_v20 main_v49 (broadcastInDim S1x1x6 ![2] bcast_S6_S1x1x6_2 : (⟨S6, .f32⟩ : BufTy).Contents (Elt F) → (⟨S1x1x6, .f32⟩ : BufTy).Contents (Elt F)),
    StableHlo.unary main_v49 main_v50 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v46 main_v50 main_v51 (Host.divf : (⟨S8x4096x6, .f32⟩ : BufTy).Contents (Elt F) → (⟨S8x4096x6, .f32⟩ : BufTy).Contents (Elt F) → (⟨S8x4096x6, .f32⟩ : BufTy).Contents (Elt F)),
    StableHlo.nullary main_cst_14 (constant S_ .f32 0x3F800000#32),
    StableHlo.unary main_cst_14 main_v52 (broadcastInDim S8x4096x6 ![] bcast_S_S8x4096x6 : (⟨S_, .f32⟩ : BufTy).Contents (Elt F) → (⟨S8x4096x6, .f32⟩ : BufTy).Contents (Elt F)),
    StableHlo.binary main_v51 main_v52 main_v53 (addf : (⟨S8x4096x6, .f32⟩ : BufTy).Contents (Elt F) → (⟨S8x4096x6, .f32⟩ : BufTy).Contents (Elt F) → (⟨S8x4096x6, .f32⟩ : BufTy).Contents (Elt F)),
    StableHlo.nullary main_cst_15 (constant S_ .f32 0x3F800000#32),
    StableHlo.unary main_cst_15 main_v54 (broadcastInDim S6 ![] bcast_S_S6 : (⟨S_, .f32⟩ : BufTy).Contents (Elt F) → (⟨S6, .f32⟩ : BufTy).Contents (Elt F)),
    StableHlo.binary main_cst main_v54 main_v55 (subf : (⟨S6, .f32⟩ : BufTy).Contents (Elt F) → (⟨S6, .f32⟩ : BufTy).Contents (Elt F) → (⟨S6, .f32⟩ : BufTy).Contents (Elt F)),
    StableHlo.nullary main_cst_16 (constant S_ .f32 0x40000000#32),
    StableHlo.unary main_cst_16 main_v56 (broadcastInDim S6 ![] bcast_S_S6 : (⟨S_, .f32⟩ : BufTy).Contents (Elt F) → (⟨S6, .f32⟩ : BufTy).Contents (Elt F)),
    StableHlo.binary main_v56 main_v55 main_v57 (Host.divf : (⟨S6, .f32⟩ : BufTy).Contents (Elt F) → (⟨S6, .f32⟩ : BufTy).Contents (Elt F) → (⟨S6, .f32⟩ : BufTy).Contents (Elt F)),
    StableHlo.unary main_v57 main_v58 (broadcastInDim S1x1x6 ![2] bcast_S6_S1x1x6_2 : (⟨S6, .f32⟩ : BufTy).Contents (Elt F) → (⟨S1x1x6, .f32⟩ : BufTy).Contents (Elt F)),
    StableHlo.unary main_v58 main_v59 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v53 main_v59 main_v60 (Host.divf : (⟨S8x4096x6, .f32⟩ : BufTy).Contents (Elt F) → (⟨S8x4096x6, .f32⟩ : BufTy).Contents (Elt F) → (⟨S8x4096x6, .f32⟩ : BufTy).Contents (Elt F)),
    StableHlo.unary main_cst_0 main_v61 (broadcastInDim S1x1x6 ![2] bcast_S6_S1x1x6_2 : (⟨S6, .f32⟩ : BufTy).Contents (Elt F) → (⟨S1x1x6, .f32⟩ : BufTy).Contents (Elt F)),
    StableHlo.unary main_v61 main_v62 (broadcastInDim S8x4096x6 ![0, 1, 2] bcast_S1x1x6_S8x4096x6_0_1_2 : (⟨S1x1x6, .f32⟩ : BufTy).Contents (Elt F) → (⟨S8x4096x6, .f32⟩ : BufTy).Contents (Elt F)),
    StableHlo.binary main_v60 main_v62 main_v63 (mulf : (⟨S8x4096x6, .f32⟩ : BufTy).Contents (Elt F) → (⟨S8x4096x6, .f32⟩ : BufTy).Contents (Elt F) → (⟨S8x4096x6, .f32⟩ : BufTy).Contents (Elt F)),
    StableHlo.nullary main_cst_17 (constant S_ .f32 0x00000000#32),
    StableHlo.binary main_v63 main_cst_17 main_v64 ((fun x v => Host.reduceAdd x v reducesTo_S8x4096x6_S8x4096_d2 h_S_) : (⟨S8x4096x6, .f32⟩ : BufTy).Contents (Elt F) → (⟨S_, .f32⟩ : BufTy).Contents (Elt F) → (⟨S8x4096, .f32⟩ : BufTy).Contents (Elt F)),
    StableHlo.TRef.unary (.of main_v64) main_call1.v0 Host.roundeven,
    StableHlo.unary main_v65 main_v66 (fptosi 32 : (⟨S8x4096, .f32⟩ : BufTy).Contents (Elt F) → (⟨S8x4096, .i32⟩ : BufTy).Contents (Elt F)),
    StableHlo.binary main_v48 main_arg3 main_v67 ((fun l r => Host.dotGeneral dot_S8x4096x6_S2048x6_S8x4096x2048_2_1_01_0_n_n none l r) : (⟨S8x4096x6, .f32⟩ : BufTy).Contents (Elt F) → (⟨S2048x6, .f32⟩ : BufTy).Contents (Elt F) → (⟨S8x4096x2048, .f32⟩ : BufTy).Contents (Elt F)),
    StableHlo.unary main_arg4 main_v68 (broadcastInDim S1x1x2048 ![2] bcast_S2048_S1x1x2048_2 : (⟨S2048, .f32⟩ : BufTy).Contents (Elt F) → (⟨S1x1x2048, .f32⟩ : BufTy).Contents (Elt F)),
    StableHlo.unary main_v68 main_v69 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    StableHlo.binary main_v67 main_v69 main_v70 (addf : (⟨S8x4096x2048, .f32⟩ : BufTy).Contents (Elt F) → (⟨S8x4096x2048, .f32⟩ : BufTy).Contents (Elt F) → (⟨S8x4096x2048, .f32⟩ : BufTy).Contents (Elt F)),
    StableHlo.unary main_v66 main_v71 (broadcastInDim S8x4096x1 ![0, 1] bcast_S8x4096_S8x4096x1_0_1 : (⟨S8x4096, .i32⟩ : BufTy).Contents (Elt F) → (⟨S8x4096x1, .i32⟩ : BufTy).Contents (Elt F)) ]

end Cert.ReferenceIdeal.RefRun

end
-- ==== Proof.RefTerm.lean ====
/-
  The reference's @main as a composition of named stages, at any float instance: the level and place-value tables, the
  six-entry vectors computed from them (levels minus one, the soft clamp's width, the grid spacing, the scale of the one
  residual round, which is all ones), a six-entry vector repeated over every row, and the five stages of a row — the
  projection, the soft clamp, the quantized code, the output and the index. Each stage is the program's own operations,
  in the program's order; Proof/RefRun.lean shows that the run of @main leaves the two results at `out70` and `idx71`.
-/
import proofs.«403460_j23776938950706_3_alg».proof.Proof.Gen.ReferenceIdeal

noncomputable section

namespace Cert.ReferenceIdeal.RefTerm

open Cert.ReferenceIdeal Cert.ReferenceIdeal.Gen Idealize.ShloMosaic

variable {F : FTy → Type} [FloatOps F]

/-- The level counts, as the constant table spells them. -/
def levels : FVec F S6 .f32 := fun i => FloatOps.ofBits .f32 (lit0 (S6.rowMajor i))
/-- The place values, as the constant table spells them. -/
def places : FVec F S6 .f32 := fun i => FloatOps.ofBits .f32 (lit1 (S6.rowMajor i))
/-- A scalar word repeated six times. -/
def splat6 (w : BitVec 32) : FVec F S6 .f32 := broadcastInDim S6 ![] bcast_S_S6 (constant S_ .f32 w)
/-- A scalar word repeated over every row and channel. -/
def splat (w : BitVec 32) : FVec F S8x4096x6 .f32 := broadcastInDim S8x4096x6 ![] bcast_S_S8x4096x6 (constant S_ .f32 w)
/-- A six-entry vector repeated over every row. -/
def row6 (v : FVec F S6 .f32) : FVec F S8x4096x6 .f32 :=
  broadcastInDim S8x4096x6 ![0, 1, 2] bcast_S1x1x6_S8x4096x6_0_1_2 (broadcastInDim S1x1x6 ![2] bcast_S6_S1x1x6_2 v)

/-- Levels minus one. -/
def lm1 : FVec F S6 .f32 := subf levels (splat6 0x3F800000#32)
/-- The soft clamp's width, 1 + 1 / (levels - 1). -/
def soft : FVec F S6 .f32 := addf (splat6 0x3F800000#32) (Host.divf (splat6 0x3F800000#32) lm1)
/-- The grid spacing, 2 / (levels - 1). -/
def stp : FVec F S6 .f32 := Host.divf (splat6 0x40000000#32) lm1
/-- The scale of the one residual round: ones, stacked to one row and flattened again. -/
def scale : FVec F S6 .f32 := shapeCast S6 (broadcastInDim S1x6 ![1] bcast_S6_S1x6_1 (splat6 0x3F800000#32 : FVec F S6 .f32)) shapeCasts_S1x6_S6

/-- The projection of every row onto the six channels, plus the bias. -/
def projected (x : FVec F S8x4096x2048 .f32) (win : FVec F S6x2048 .f32) (bin : FVec F S6 .f32) : FVec F S8x4096x6 .f32 :=
  addf (Host.dotGeneral dot_S8x4096x2048_S6x2048_S8x4096x6_2_1_01_0_n_n none x win) (row6 bin)
/-- The tanh soft clamp. -/
def squashed (h : FVec F S8x4096x6 .f32) : FVec F S8x4096x6 .f32 :=
  mulf (Host.tanh (Host.divf h (row6 soft))) (row6 soft)
/-- The clip to [-1, 1]. -/
def clipped (v : FVec F S8x4096x6 .f32) : FVec F S8x4096x6 .f32 :=
  minimumf (broadcastInDim S8x4096x6 ![] bcast_S_S8x4096x6 (constant S_ .f32 0x3F800000#32))
    (maximumf (broadcastInDim S8x4096x6 ![] bcast_S_S8x4096x6 (constant S_ .f32 0xBF800000#32)) v)
/-- The quantized code of the squashed value over the scale, times the scale. -/
def coded (sq : FVec F S8x4096x6 .f32) : FVec F S8x4096x6 .f32 :=
  mulf (subf (mulf (row6 stp) (Host.floor (addf (Host.divf (mulf (row6 lm1) (addf (clipped (Host.divf sq (row6 scale))) (splat 0x3F800000#32)))
    (splat 0x40000000#32)) (splat 0x3F000000#32)))) (splat 0x3F800000#32)) (row6 scale)
/-- The codes, summed from zero over the one round, projected back out, plus the bias. -/
def outOf (q : FVec F S8x4096x6 .f32) (wout : FVec F S2048x6 .f32) (bout : FVec F S2048 .f32) : FVec F S8x4096x2048 .f32 :=
  addf (Host.dotGeneral dot_S8x4096x6_S2048x6_S8x4096x2048_2_1_01_0_n_n none (addf (splat 0x00000000#32) q) wout)
    (broadcastInDim S8x4096x2048 ![0, 1, 2] bcast_S1x1x2048_S8x4096x2048_0_1_2 (broadcastInDim S1x1x2048 ![2] bcast_S2048_S1x1x2048_2 bout))
/-- The index of every row from its codes. -/
def indexOf (q : FVec F S8x4096x6 .f32) : IVec S8x4096x1 32 :=
  broadcastInDim S8x4096x1 ![0, 1] bcast_S8x4096_S8x4096x1_0_1
    (fptosi 32 (Host.roundeven (Host.reduceAdd (mulf (Host.divf (addf (Host.divf q (row6 scale)) (splat 0x3F800000#32)) (row6 stp)) (row6 places))
      (constant S_ .f32 0x00000000#32) reducesTo_S8x4096x6_S8x4096_d2 h_S_)))

/-- The first result of @main as a function of its arguments. -/
def out70 (x : FVec F S8x4096x2048 .f32) (win : FVec F S6x2048 .f32) (bin : FVec F S6 .f32) (wout : FVec F S2048x6 .f32)
    (bout : FVec F S2048 .f32) : FVec F S8x4096x2048 .f32 :=
  outOf (coded (squashed (projected x win bin))) wout bout
/-- The second result of @main as a function of its arguments. -/
def idx71 (x : FVec F S8x4096x2048 .f32) (win : FVec F S6x2048 .f32) (bin : FVec F S6 .f32) : IVec S8x4096x1 32 :=
  indexOf (coded (squashed (projected x win bin)))

end Cert.ReferenceIdeal.RefTerm

end
-- ==== Proof.RefRun.lean ====
/-
  The run of the reference's @main: the program is the straight line of its host operations (Proof/RefOps.lean), so
  every weakly fair execution terminates with each buffer at the operations' fold over the launch contents; read at the
  two result buffers the fold is the composition of stages of Proof/RefTerm.lean, and the arguments are never written.
-/
import proofs.«403460_j23776938950706_3_alg».proof.Proof.RefOps
import proofs.«403460_j23776938950706_3_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- ninety-odd binds re-associated: the rewriting recurses once per statement and revisits the tail after each step
set_option maxRecDepth 8192 in
set_option maxHeartbeats 4000000 in
/-- @main is the straight line of its operations: the two windows of statements in order, the two called functions
    unfolded at their calls. Once sequencing is re-associated to the right and the returns of the called bodies are
    absorbed, both sides are the same chain of steps. -/
theorem main_eq (c : Dev nD) : main (F := F) c = seq ops := by
  simp only [main, main_part0, main_part1, fn_clip.body, fn_round.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only: one fact per operation, in the operations' order (an
    operation of a called function is the builder of its arity at the call's buffers). -/
theorem ops_sub : (ops : List (HloOp τ sig (Elt F))).Forall fun op => op.bufs ⊆ tcRefs τ sig :=
  ⟨nullary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    unary_bufs_sub .., unary_bufs_sub .., binary_bufs_sub .., unary_bufs_sub .., unary_bufs_sub .., unary_bufs_sub ..,
    binary_bufs_sub .., nullary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., nullary_bufs_sub .., unary_bufs_sub .., binary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., nullary_bufs_sub .., binary_bufs_sub .., unary_bufs_sub ..,
    unary_bufs_sub .., binary_bufs_sub .., unary_bufs_sub .., unary_bufs_sub .., binary_bufs_sub .., unary_bufs_sub ..⟩

/-! ## The fold at the results and at the arguments

Over an arbitrary valuation `V`: each operation's result at its own buffer is its function's value and at any other
reference what was there, so the fold at a result buffer is a term over `V` at the five arguments; no operation writes
an argument. -/

attribute [local irreducible] Host.reduceAdd in
set_option maxRecDepth 8192 in
set_option maxHeartbeats 4000000 in
/-- The fold at the first result is the stages' composition, by computation: the fold unrolled, each operation's result
    decides whether the buffer read is the one it writes, the transports of the called functions' typed references and
    the clip's conversions of its two bounds are identities, and the stages are the operations in the same order. The
    row sum is kept folded meanwhile: the equation never looks inside it. -/
theorem out70_eq (V : Valuation τ sig (Elt F)) :
    after ops V (main_v70 : DevRef τ sig)
      = RefTerm.out70 (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

attribute [local irreducible] Host.reduceAdd in
set_option maxRecDepth 8192 in
set_option maxHeartbeats 4000000 in
/-- The fold at the second result is the stages' composition, likewise. -/
theorem idx71_eq (V : Valuation τ sig (Elt F)) :
    after ops V (main_v71 : DevRef τ sig)
      = RefTerm.idx71 (V (main_arg0 : DevRef τ sig)) (V (main_arg1 : DevRef τ sig)) (V (main_arg2 : DevRef τ sig)) := by
  simp only [after_cons, after_nil]
  rfl

/-- No operation writes the first argument. -/
theorem arg0_eq (V : Valuation τ sig (Elt F)) : after ops V (main_arg0 : DevRef τ sig) = V (main_arg0 : DevRef τ sig) := by
  simp only [after_cons, after_nil]
  rfl
/-- No operation writes the second argument. -/
theorem arg1_eq (V : Valuation τ sig (Elt F)) : after ops V (main_arg1 : DevRef τ sig) = V (main_arg1 : DevRef τ sig) := by
  simp only [after_cons, after_nil]
  rfl
/-- No operation writes the third argument. -/
theorem arg2_eq (V : Valuation τ sig (Elt F)) : after ops V (main_arg2 : DevRef τ sig) = V (main_arg2 : DevRef τ sig) := by
  simp only [after_cons, after_nil]
  rfl
/-- No operation writes the fourth argument. -/
theorem arg3_eq (V : Valuation τ sig (Elt F)) : after ops V (main_arg3 : DevRef τ sig) = V (main_arg3 : DevRef τ sig) := by
  simp only [after_cons, after_nil]
  rfl
/-- No operation writes the fifth argument. -/
theorem arg4_eq (V : Valuation τ sig (Elt F)) : after ops V (main_arg4 : DevRef τ sig) = V (main_arg4 : DevRef τ sig) := by
  simp only [after_cons, after_nil]
  rfl

/-- Every weakly fair execution of @main terminates with the two results at the stages' composition of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
          = RefTerm.out70 (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v71)
          = RefTerm.idx71 (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v70).trans (out70_eq _), (h c main_v71).trans (idx71_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefValue.lean ====
/-
  The reference's two results read at an index, on the extended reals: the output at (b, s, d) and the index word of
  row (b, s) are the second spelling of the quantizer (Proof/Fsq.lean) of the argument arrays.
-/
import proofs.«403460_j23776938950706_3_alg».proof.Proof.RefTerm
import proofs.«403460_j23776938950706_3_alg».proof.Proof.Fsq
import proofs.«403460_j23776938950706_3_alg».proof.Proof.LibDots
import proofs.«403460_j23776938950706_3_alg».proof.Proof.LibLayoutIx

noncomputable section

namespace Cert.ReferenceIdeal.RefValue

open Cert.ReferenceIdeal Cert.ReferenceIdeal.Gen Idealize.ShloMosaic Idealize.ShloMosaic.ValueIdx

/-! ## The two tables and the splats -/

/-- A rank-1 index of extent six sits at its coordinate in row-major order. -/
theorem rowMajor_ix1 (c : Fin 6) : S6.rowMajor (ix1 c) = c := Fin.ext (Shape.rowMajor_val_one _)

/-- The first table lists the level words. -/
theorem lit0_eq (c : Fin 6) : lit0 c = Cert.Fsq.levelWord c :=
  match c with
  | ⟨0, _⟩ => rfl | ⟨1, _⟩ => rfl | ⟨2, _⟩ => rfl | ⟨3, _⟩ => rfl | ⟨4, _⟩ => rfl | ⟨5, _⟩ => rfl

/-- The second table lists the place-value words. -/
theorem lit1_eq (c : Fin 6) : lit1 c = Cert.Fsq.basisWord c :=
  match c with
  | ⟨0, _⟩ => rfl | ⟨1, _⟩ => rfl | ⟨2, _⟩ => rfl | ⟨3, _⟩ => rfl | ⟨4, _⟩ => rfl | ⟨5, _⟩ => rfl

/-- Entry c of the level table is channel c's level count. -/
theorem levels_apply (c : Fin 6) : RefTerm.levels (F := Ideal) (ix1 c) = Cert.Fsq.level c := by
  show Ideal.ofBits .f32 (lit0 (S6.rowMajor (ix1 c))) = Ideal.ofBits .f32 (Cert.Fsq.levelWord c)
  rw [rowMajor_ix1, lit0_eq]

/-- Entry c of the place-value table is channel c's place value. -/
theorem places_apply (c : Fin 6) : RefTerm.places (F := Ideal) (ix1 c) = Cert.Fsq.basis c := by
  show Ideal.ofBits .f32 (lit1 (S6.rowMajor (ix1 c))) = Ideal.ofBits .f32 (Cert.Fsq.basisWord c)
  rw [rowMajor_ix1, lit1_eq]

/-- A word repeated six times reads the word's value at every entry. -/
theorem splat6_apply (w : BitVec 32) (i : S6.Idx) : RefTerm.splat6 (F := Ideal) w i = Ideal.ofBits .f32 w := by
  unfold RefTerm.splat6
  exact (Cert.LibLayoutIx.broadcastInDim_scalar _ _ _ _ _).trans rfl

/-- A word repeated over every row and channel reads the word's value at every entry. -/
theorem splat_apply (w : BitVec 32) (i : S8x4096x6.Idx) : RefTerm.splat (F := Ideal) w i = Ideal.ofBits .f32 w := by
  unfold RefTerm.splat
  exact (Cert.LibLayoutIx.broadcastInDim_scalar _ _ _ _ _).trans rfl

/-- A six-entry vector repeated over every row reads its entry c at (b, s, c). -/
theorem row6_apply (v : FVec Ideal S6 .f32) (b : Fin 8) (s : Fin 4096) (c : Fin 6) :
    RefTerm.row6 v (ix3 b s c) = v (ix1 c) := by
  unfold RefTerm.row6
  refine (broadcastInDim_apply _ _ _ _ (ix3 0 0 c) (fun a => match a with
    | ⟨0, _⟩ => rfl | ⟨1, _⟩ => rfl | ⟨2, _⟩ => rfl)).trans ?_
  exact broadcastInDim_apply _ _ _ _ (ix1 c) (fun a => match a with | ⟨0, _⟩ => rfl)

/-! ## The six-entry vectors computed from the level table -/

/-- Levels minus one, at channel c. -/
theorem lm1_apply (c : Fin 6) : RefTerm.lm1 (F := Ideal) (ix1 c) = Cert.Fsq.lm1 (Cert.Fsq.level c) := by
  show RefTerm.levels (F := Ideal) (ix1 c) - RefTerm.splat6 (F := Ideal) 0x3F800000#32 (ix1 c) = _
  rw [levels_apply, splat6_apply]; rfl

/-- The soft clamp's width, at channel c. -/
theorem soft_apply (c : Fin 6) : RefTerm.soft (F := Ideal) (ix1 c) = Cert.Fsq.softClamp (Cert.Fsq.level c) := by
  show RefTerm.splat6 (F := Ideal) 0x3F800000#32 (ix1 c)
    + Ideal.div (RefTerm.splat6 (F := Ideal) 0x3F800000#32 (ix1 c)) (RefTerm.lm1 (F := Ideal) (ix1 c)) = _
  rw [lm1_apply, splat6_apply]; rfl

/-- The grid spacing, at channel c. -/
theorem stp_apply (c : Fin 6) : RefTerm.stp (F := Ideal) (ix1 c) = Cert.Fsq.step (Cert.Fsq.level c) := by
  show Ideal.div (RefTerm.splat6 (F := Ideal) 0x40000000#32 (ix1 c)) (RefTerm.lm1 (F := Ideal) (ix1 c)) = _
  rw [lm1_apply, splat6_apply]; rfl

/-- The scale of the one residual round is one at every channel. -/
theorem scale_apply (c : Fin 6) : RefTerm.scale (F := Ideal) (ix1 c) = Cert.Fsq.one := by
  unfold RefTerm.scale
  refine (Cert.LibLayoutIx.shapeCast_row _ _ c).trans ?_
  refine (Cert.LibLayoutIx.broadcastInDim_row _ _ 0 c).trans ?_
  exact splat6_apply _ _

/-! ## The stages of a row -/

/-- The projection of row (b, s) onto channel c. -/
theorem projected_apply (x : FVec Ideal S8x4096x2048 .f32) (win : FVec Ideal S6x2048 .f32) (bin : FVec Ideal S6 .f32)
    (b : Fin 8) (s : Fin 4096) (c : Fin 6) :
    RefTerm.projected x win bin (ix3 b s c) = Cert.Fsq.proj x win bin b s c := by
  show Host.dotGeneral (F := Ideal) dot_S8x4096x2048_S6x2048_S8x4096x6_2_1_01_0_n_n none x win (ix3 b s c)
    + RefTerm.row6 bin (ix3 b s c) = _
  rw [row6_apply]
  exact congrArg (· + bin (ix1 c)) (Cert.Lib.Dots.dotGeneral_rank3_rowsT_apply _ none x win b s c)

/-- The tanh soft clamp of channel c. -/
theorem squashed_apply (h : FVec Ideal S8x4096x6 .f32) (b : Fin 8) (s : Fin 4096) (c : Fin 6) :
    RefTerm.squashed h (ix3 b s c) = Cert.Fsq.squash (Cert.Fsq.level c) (h (ix3 b s c)) := by
  show Ideal.tanh (Ideal.div (h (ix3 b s c)) (RefTerm.row6 (F := Ideal) RefTerm.soft (ix3 b s c))) * RefTerm.row6 (F := Ideal) RefTerm.soft (ix3 b s c) = _
  rw [row6_apply, soft_apply]; rfl

/-- The clip to [-1, 1]. -/
theorem clipped_apply (v : FVec Ideal S8x4096x6 .f32) (i : S8x4096x6.Idx) :
    RefTerm.clipped v i = Cert.Fsq.clip (v i) := by
  show min (RefTerm.splat (F := Ideal) 0x3F800000#32 i) (max (RefTerm.splat (F := Ideal) 0xBF800000#32 i) (v i)) = _
  rw [splat_apply, splat_apply]; rfl

/-- The quantized code of channel c, in the spelling with the scale. -/
theorem coded_apply (sq : FVec Ideal S8x4096x6 .f32) (b : Fin 8) (s : Fin 4096) (c : Fin 6) :
    RefTerm.coded sq (ix3 b s c)
      = Cert.Fsq.quantize (Cert.Fsq.level c) (Ideal.div (sq (ix3 b s c)) Cert.Fsq.one) * Cert.Fsq.one := by
  show (RefTerm.row6 (F := Ideal) RefTerm.stp (ix3 b s c)
      * Ideal.liftRound Int.floor (Ideal.div (RefTerm.row6 (F := Ideal) RefTerm.lm1 (ix3 b s c)
          * (RefTerm.clipped (Host.divf sq (RefTerm.row6 (F := Ideal) RefTerm.scale)) (ix3 b s c) + RefTerm.splat (F := Ideal) 0x3F800000#32 (ix3 b s c)))
        (RefTerm.splat (F := Ideal) 0x40000000#32 (ix3 b s c)) + RefTerm.splat (F := Ideal) 0x3F000000#32 (ix3 b s c))
      - RefTerm.splat (F := Ideal) 0x3F800000#32 (ix3 b s c)) * RefTerm.row6 (F := Ideal) RefTerm.scale (ix3 b s c) = _
  rw [clipped_apply, Cert.LibLayoutIx.host_divf_apply]
  simp only [row6_apply, splat_apply, stp_apply, lm1_apply, scale_apply]
  rfl

/-- The code of the squashed projection is the second spelling's code. -/
theorem coded_squashed_projected_apply (x : FVec Ideal S8x4096x2048 .f32) (win : FVec Ideal S6x2048 .f32)
    (bin : FVec Ideal S6 .f32) (b : Fin 8) (s : Fin 4096) (c : Fin 6) :
    RefTerm.coded (RefTerm.squashed (RefTerm.projected x win bin)) (ix3 b s c)
      = Cert.Fsq.codeScaled (Cert.Fsq.level c) (Cert.Fsq.proj x win bin b s c) := by
  rw [coded_apply, squashed_apply, projected_apply]; rfl

/-- The output at (b, s, d) from the codes q: the codes summed from zero, projected back out, plus the bias. -/
theorem outOf_apply (q : FVec Ideal S8x4096x6 .f32) (wout : FVec Ideal S2048x6 .f32) (bout : FVec Ideal S2048 .f32)
    (b : Fin 8) (s : Fin 4096) (d : Fin 2048) :
    RefTerm.outOf q wout bout (ix3 b s d)
      = (∑ c : Fin 6, (Cert.Fsq.zero + q (ix3 b s c)) * wout (ix2 d c)) + bout (ix1 d) := by
  unfold RefTerm.outOf
  rw [addf_apply]
  refine congrArg₂ (· + ·) ?_ ?_
  · refine (Cert.Lib.Dots.dotGeneral_rank3_rowsT_apply _ none _ wout b s d).trans ?_
    refine Finset.sum_congr rfl fun c _ => ?_
    rw [addf_apply, splat_apply]
  · refine (broadcastInDim_apply _ _ _ _ (ix3 0 0 d) (fun a => match a with
      | ⟨0, _⟩ => rfl | ⟨1, _⟩ => rfl | ⟨2, _⟩ => rfl)).trans ?_
    exact broadcastInDim_apply _ _ _ _ (ix1 d) (fun a => match a with | ⟨0, _⟩ => rfl)

/-- Summing out the last axis of an [8, 4096, 6] array is possible, with result [8, 4096]. -/
theorem reduces_last : S8x4096x6.Reduces [2] S8x4096 := by decide

/-- The index the sum over the last axis reads at row (b, s) and position k is (b, s, k). -/
theorem lift_ix2 (b : Fin 8) (s : Fin 4096) (k : Fin 6) : reduces_last.lift (ix2 b s) k = ix3 b s k := by
  funext a
  match a with
  | ⟨0, _⟩ => rfl
  | ⟨1, _⟩ => rfl
  | ⟨2, _⟩ => rfl

/-- One term of the index sum: channel c's grid position, recovered from the code, times its place value. -/
theorem indexTerm_apply (q : FVec Ideal S8x4096x6 .f32) (b : Fin 8) (s : Fin 4096) (c : Fin 6) :
    mulf (Host.divf (addf (Host.divf q (RefTerm.row6 (F := Ideal) RefTerm.scale)) (RefTerm.splat (F := Ideal) 0x3F800000#32))
        (RefTerm.row6 (F := Ideal) RefTerm.stp)) (RefTerm.row6 (F := Ideal) RefTerm.places) (ix3 b s c)
      = Ideal.div (Ideal.div (q (ix3 b s c)) Cert.Fsq.one + Cert.Fsq.one) (Cert.Fsq.step (Cert.Fsq.level c))
          * Cert.Fsq.basis c := by
  rw [mulf_apply, Cert.LibLayoutIx.host_divf_apply, addf_apply, Cert.LibLayoutIx.host_divf_apply,
    row6_apply, row6_apply, row6_apply, splat_apply, scale_apply, stp_apply, places_apply]

/-- The index word of row (b, s) from the codes q: the grid positions times the place values, summed from zero,
    rounded to the nearest integer and converted. -/
theorem indexOf_apply (q : FVec Ideal S8x4096x6 .f32) (b : Fin 8) (s : Fin 4096) (z : Fin 1) :
    RefTerm.indexOf q (ix3 b s z)
      = Ideal.fptosi 32 (Ideal.liftRound Ideal.roundHalfEven
          (Cert.Fsq.zero + ∑ c : Fin 6, Ideal.div (Ideal.div (q (ix3 b s c)) Cert.Fsq.one + Cert.Fsq.one)
            (Cert.Fsq.step (Cert.Fsq.level c)) * Cert.Fsq.basis c)) := by
  unfold RefTerm.indexOf
  refine (broadcastInDim_apply _ _ _ _ (ix2 b s) (fun a => match a with | ⟨0, _⟩ => rfl | ⟨1, _⟩ => rfl)).trans ?_
  rw [Cert.LibLayoutIx.fptosi_apply, Cert.LibLayoutIx.host_roundeven_apply]
  refine congrArg (fun t => Ideal.fptosi 32 (Ideal.liftRound Ideal.roundHalfEven t)) ?_
  refine (Ideal.hostReduceAdd_single reducesTo_S8x4096x6_S8x4096_d2 reduces_last _ _ (ix2 b s)).trans ?_
  refine congrArg₂ (· + ·) rfl ?_
  refine Finset.sum_congr rfl fun c _ => ?_
  exact (congrArg _ (lift_ix2 b s c)).trans (indexTerm_apply q b s c)

/-! ## The two results -/

/-- The reference's output at (b, s, d). -/
theorem out70_apply (x : FVec Ideal S8x4096x2048 .f32) (win : FVec Ideal S6x2048 .f32) (bin : FVec Ideal S6 .f32)
    (wout : FVec Ideal S2048x6 .f32) (bout : FVec Ideal S2048 .f32) (b : Fin 8) (s : Fin 4096) (d : Fin 2048) :
    RefTerm.out70 (F := Ideal) x win bin wout bout (ix3 b s d) = Cert.Fsq.outScaledAt x win bin wout bout b s d := by
  unfold RefTerm.out70
  rw [outOf_apply]
  unfold Cert.Fsq.outScaledAt
  refine congrArg (· + bout (ix1 d)) ?_
  refine Finset.sum_congr rfl fun c _ => ?_
  rw [coded_squashed_projected_apply]; rfl

/-- The reference's index word of row (b, s). -/
theorem idx71_apply (x : FVec Ideal S8x4096x2048 .f32) (win : FVec Ideal S6x2048 .f32) (bin : FVec Ideal S6 .f32)
    (b : Fin 8) (s : Fin 4096) (z : Fin 1) :
    RefTerm.idx71 (F := Ideal) x win bin (ix3 b s z) = Cert.Fsq.indexScaledAt x win bin b s := by
  unfold RefTerm.idx71
  rw [indexOf_apply]
  unfold Cert.Fsq.indexScaledAt Cert.Fsq.indexWordScaled
  refine congrArg (fun t => Ideal.fptosi 32 (Ideal.liftRound Ideal.roundHalfEven (Cert.Fsq.zero + t))) ?_
  refine Finset.sum_congr rfl fun c _ => ?_
  rw [coded_squashed_projected_apply]

end Cert.ReferenceIdeal.RefValue

end
-- ==== Proof.lean ====
/-
  A finite scalar quantizer against its reference, on the extended reals.

  Both programs project each of the 32768 rows of the input onto six channels, squash each projected value with a tanh
  soft clamp, clip it to [-1, 1], move it onto a grid of 8 or 5 levels, floor it, and map it back to a code; the first
  result is the codes projected back out plus a bias, the second the mixed-radix index of the floored grid positions.
  The kernel works on the input flattened to 32768 rows in 32 blocks of 1024 and keeps the index as 256 tiles of 128
  lanes; it computes the index as the codes' product with the weights (place value / grid spacing) plus the sum of the
  weights. The reference works on [8, 4096] rows, recovers each grid position as (code + 1) / spacing, and carries the
  bookkeeping of a single residual round: a quotient by the scale one, a product with it, a sum started from zero.

  Proof/Fsq.lean states the computation in both spellings and Proof/FsqLaws.lean proves them equal: dividing by one,
  multiplying by one and adding zero change no extended real, and every code is a real number (the clip bounds it), so
  (q + 1) / s · B = q · (B / s) + B / s holds term by term. Proof/KerRun.lean reads the kernel program's run as the first
  spelling of the arguments, Proof/RefRun.lean and Proof/RefValue.lean read the reference's run as the second. The
  frames of the two kernel programs are the generated ones; the reference's frame is its run with the results dropped.
  The precondition is not used: no law here needs the inputs finite.
-/
import proofs.«403460_j23776938950706_3_alg».proof.Defs
import proofs.«403460_j23776938950706_3_alg».proof.Proof.Gen.Kernel
import proofs.«403460_j23776938950706_3_alg».proof.Proof.Gen.Kernel.Frame
import proofs.«403460_j23776938950706_3_alg».proof.Proof.Gen.KernelIdeal
import proofs.«403460_j23776938950706_3_alg».proof.Proof.Gen.KernelIdeal.Frame
import proofs.«403460_j23776938950706_3_alg».proof.Proof.Gen.ReferenceIdeal
import proofs.«403460_j23776938950706_3_alg».proof.Proof.Gen.Pre_finite_inputs
import proofs.«403460_j23776938950706_3_alg».proof.Proof.FsqLaws
import proofs.«403460_j23776938950706_3_alg».proof.Proof.KerRun
import proofs.«403460_j23776938950706_3_alg».proof.Proof.RefRun
import proofs.«403460_j23776938950706_3_alg».proof.Proof.RefValue
import Idealize.ShloMosaic.Adequacy
import Idealize.ShloMosaic.Init

noncomputable section

namespace Cert.Proof

open Idealize.ShloMosaic Idealize.ShloMosaic.ValueIdx Idealize.SL.Sem

/-! ## The reference's results are the first spelling's arrays -/

/-- The reference's output array. -/
theorem ref_out (x : FVec Ideal Cert.ReferenceIdeal.S8x4096x2048 .f32) (win : FVec Ideal Cert.ReferenceIdeal.S6x2048 .f32)
    (bin : FVec Ideal Cert.ReferenceIdeal.S6 .f32) (wout : FVec Ideal Cert.ReferenceIdeal.S2048x6 .f32)
    (bout : FVec Ideal Cert.ReferenceIdeal.S2048 .f32) :
    Cert.ReferenceIdeal.RefTerm.out70 (F := Ideal) x win bin wout bout = Cert.Fsq.outArr x win bin wout bout := by
  funext i
  obtain ⟨b, s, d, rfl⟩ : ∃ (b : Fin 8) (s : Fin 4096) (d : Fin 2048), i = ix3 b s d := ⟨i 0, i 1, i 2, eq_ix3 i⟩
  rw [Cert.ReferenceIdeal.RefValue.out70_apply, Cert.Fsq.outScaledAt_eq_outAt]
  rfl

/-- The reference's index array. -/
theorem ref_idx (x : FVec Ideal Cert.ReferenceIdeal.S8x4096x2048 .f32) (win : FVec Ideal Cert.ReferenceIdeal.S6x2048 .f32)
    (bin : FVec Ideal Cert.ReferenceIdeal.S6 .f32) :
    Cert.ReferenceIdeal.RefTerm.idx71 (F := Ideal) x win bin = Cert.Fsq.indexArr x win bin := by
  funext i
  obtain ⟨b, s, z, rfl⟩ : ∃ (b : Fin 8) (s : Fin 4096) (z : Fin 1), i = ix3 b s z := ⟨i 0, i 1, i 2, eq_ix3 i⟩
  rw [Cert.ReferenceIdeal.RefValue.idx71_apply, Cert.Fsq.indexScaledAt_eq_indexAt]
  rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the two results dropped. -/
theorem frame_reference : Cert.frame_ReferenceIdeal := fun m ρ _ =>
  (θ_run Cert.ReferenceIdeal.defs _ _).mono (fun _ h c => (h c).2.2) (Cert.ReferenceIdeal.RefRun.run (F := Ideal) m ρ)

/-- The ideal pass rewrote nothing. -/
theorem preserves : Cert.preserves_Kernel_KernelIdeal := trivial

/-- From memories agreeing on the arguments both programs end with the first spelling's two arrays of the arguments. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.RefRun.run (F := Ideal) m' ρ')
  obtain ⟨h70, h71, hargs⟩ := h c
  obtain ⟨a0, a1, a2, a3, a4⟩ := hagree c
  refine ⟨?_, ?_, hargs⟩
  · rw [h70, ref_out, a0, a1, a2, a3, a4]
  · rw [h71, ref_idx, a0, a1, a2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
